-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : FVec F S800000x64 .f32) (main_arg2 : IVec S800000 32) (main_arg3 : IVec S800000 32) (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S64x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S_ : Shape := ⟨0, ![]⟩
abbrev S800000x1 : Shape := ⟨2, ![800000, 1]⟩
abbrev S10000x64 : Shape := ⟨2, ![10000, 64]⟩
abbrev S1x64 : Shape := ⟨2, ![1, 64]⟩
abbrev S5000x64 : Shape := ⟨2, ![5000, 64]⟩
abbrev S50000x1 : Shape := ⟨2, ![50000, 1]⟩
abbrev S1x1 : Shape := ⟨2, ![1, 1]⟩

abbrev nBuf : Space → Nat
  | .hbm => 56
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .hbm, ⟨52, _⟩ => ⟨S50000x1, .f32⟩
  | .hbm, ⟨53, _⟩ => ⟨S1x1, .f32⟩
  | .hbm, ⟨54, _⟩ => ⟨S50000x1, .f32⟩
  | .hbm, ⟨55, _⟩ => ⟨S50000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S10000x64, .f32⟩
  | .local _ .vmem, ⟨26, _⟩ => ⟨S10000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S128x64_S64x64_0_0 : S128x64.Slices ![0, 0] S64x64
  slices_S128x64_S64x64_64_0 : S128x64.Slices ![64, 0] S64x64
  bcast_S_S800000 : S_.BroadcastsInDim S800000 (![] : Fin 0 → Fin S800000.rank)
  bcast_S800000_S800000x1_0 : S800000.BroadcastsInDim S800000x1 (![0] : Fin 1 → Fin S800000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x64_S800000x1_S800000x64_1_0_n_n_0_1_164_wf : GatherDims.WF S50000x64 S800000x1 S800000x64 [1] [0] [] [0] [] 1 ![1, 64]
  dot_S10000x64_S64x64_S10000x64_1_0_0_1_n_n_wf : DotDims.WF S10000x64 S64x64 S10000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S50000x64_S64x1_S50000x1_1_0_0_1_n_n_wf : DotDims.WF S50000x64 S64x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S800000x64.size a
  hwx0_5 : ∀ i : grid0.Coords, EltTy.bits .f32 = 32 ∨ (Rect.block (s := S800000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S800000x64.size a
  hwx2_0 : ∀ i : grid2.Coords, EltTy.bits .f32 = 32 ∨ (Rect.block (s := S800000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S800000x64.size a
  hwx2_5 : ∀ i : grid2.Coords, EltTy.bits .f32 = 32 ∨ (Rect.block (s := S800000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v15) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S800000x128, .f32⟩
  | .hbm, ⟨24, _⟩ => ⟨S800000x64, .f32⟩
  | .hbm, ⟨25, _⟩ => ⟨S1x64, .f32⟩
  | .hbm, ⟨26, _⟩ => ⟨S800000x64, .f32⟩
  | .hbm, ⟨27, _⟩ => ⟨S800000x64, .f32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S50000x128, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S800000x128, .f32⟩
  | .hbm, ⟨49, _⟩ => ⟨S800000x64, .f32⟩
  | .hbm, ⟨50, _⟩ => ⟨S1x64, .f32⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S50000x128, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x1, .f32⟩
  | .hbm, ⟨65, _⟩ => ⟨S1x1, .f32⟩
  | .hbm, ⟨66, _⟩ => ⟨S50000x1, .f32⟩
  | .hbm, ⟨67, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The network both programs compute, at the ideal values, as ONE function of the fourteen argument arrays.

  A layer is: gather the sender rows `h[src]` (negative indices wrapped by the node count), a dense step
  `tanh (x · Wh + e · We + b)` over the 800000 edges, a scatter-add of the edge rows into the 50000 receiver rows,
  and a second dense step over the nodes. The dense step is stated row by row: entry `(r, j)` is
  `tanh ((∑ k, x r k · Wh k j) + (∑ k, e r k · We k j) + b j)`, the two 64-term sums being the two halves of the
  128-term product of the concatenated row with the stacked weight matrix. Gather, scatter-add and the closing
  product with `Wo` are the same host operations in both programs and stay opaque here.
-/
import proofs.«133444_j69784628625437_1_alg».proof.Proof.Gen.KernelIdeal
import Idealize.ShloMosaic.Lib.ValueIdx

noncomputable section

namespace Cert.Net

open Idealize.ShloMosaic Idealize.ShloMosaic.ValueIdx Cert.KernelIdeal Cert.KernelIdeal.Facts₀

/-- Entry `j` of one row of a dense step: `tanh ((∑ k, x k · Wh k j) + (∑ k, e k · We k j) + b j)`. -/
def rowAct (x e : Fin 64 → EReal) (Wh We : Vec Ideal S64x64 .f32) (b : Vec Ideal S64 .f32) (j : Fin 64) : EReal :=
  Ideal.tanh (((∑ k : Fin 64, x k * Wh (ix2 k j)) + (∑ k : Fin 64, e k * We (ix2 k j))) + b (ix1 j))

/-- The dense step over the 800000 edge rows. -/
def dense800 (X E : Vec Ideal S800000x64 .f32) (Wh We : Vec Ideal S64x64 .f32) (b : Vec Ideal S64 .f32) :
    Vec Ideal S800000x64 .f32 :=
  fun i => rowAct (fun k => X (ix2 (i 0) k)) (fun k => E (ix2 (i 0) k)) Wh We b (i 1)

/-- The dense step over the 50000 node rows. -/
def dense50 (X E : Vec Ideal S50000x64 .f32) (Wh We : Vec Ideal S64x64 .f32) (b : Vec Ideal S64 .f32) :
    Vec Ideal S50000x64 .f32 :=
  fun i => rowAct (fun k => X (ix2 (i 0) k)) (fun k => E (ix2 (i 0) k)) Wh We b (i 1)

/-- Rows 0..63 of a stacked weight matrix. -/
abbrev sliceLo (W : Vec Ideal S128x64 .f32) : Vec Ideal S64x64 .f32 :=
  extractStridedSlice S64x64 ![0, 0] W slices_S128x64_S64x64_0_0
/-- Rows 64..127 of a stacked weight matrix. -/
abbrev sliceHi (W : Vec Ideal S128x64 .f32) : Vec Ideal S64x64 .f32 :=
  extractStridedSlice S64x64 ![64, 0] W slices_S128x64_S64x64_64_0

/-- The sender indices as the gather takes them: a negative index wrapped by the node count, as a column. -/
def srcIdx (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sender rows `h[src]`. -/
def gath (h : Vec Ideal S50000x64 .f32) (src : (⟨S800000, .i32⟩ : BufTy).Contents (Elt Ideal)) : Vec Ideal S800000x64 .f32 :=
  Host.gather gather_S50000x64_S800000x1_S800000x64_1_0_n_n_0_1_164 h (srcIdx src)

/-- The edge rows summed into their receiver rows. -/
def pool (dst : (⟨S800000, .i32⟩ : BufTy).Contents (Elt Ideal)) (msg : Vec Ideal S800000x64 .f32) : Vec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst) msg

/-- One message-passing layer. -/
def layer (h : Vec Ideal S50000x64 .f32) (ef : Vec Ideal S800000x64 .f32)
    (src dst : (⟨S800000, .i32⟩ : BufTy).Contents (Elt Ideal))
    (Wm : Vec Ideal S128x64 .f32) (bm : Vec Ideal S64 .f32) (Wu : Vec Ideal S128x64 .f32) (bu : Vec Ideal S64 .f32) :
    Vec Ideal S50000x64 .f32 :=
  dense50 h (pool dst (dense800 (gath h src) ef (sliceLo Wm) (sliceHi Wm) bm)) (sliceLo Wu) (sliceHi Wu) bu

/-- The whole network: two layers, then the product with `Wo` plus `bo`. -/
def net (a0 : Vec Ideal S50000x64 .f32) (a1 : Vec Ideal S800000x64 .f32)
    (a2 a3 : (⟨S800000, .i32⟩ : BufTy).Contents (Elt Ideal))
    (a4 : Vec Ideal S128x64 .f32) (a5 : Vec Ideal S64 .f32) (a6 : Vec Ideal S128x64 .f32) (a7 : Vec Ideal S64 .f32)
    (a8 : Vec Ideal S128x64 .f32) (a9 : Vec Ideal S64 .f32) (a10 : Vec Ideal S128x64 .f32) (a11 : Vec Ideal S64 .f32)
    (a12 : Vec Ideal S64x1 .f32) (a13 : Vec Ideal S1 .f32) : Vec Ideal S50000x1 .f32 :=
  addf (F := Ideal) (Host.dotGeneral (F := Ideal) (φ₁ := .f32) (φ₂ := .f32) dot_S50000x64_S64x1_S50000x1_1_0_0_1_n_n none
      (layer (layer a0 a1 a2 a3 a4 a5 a6 a7) a1 a2 a3 a8 a9 a10 a11) a12)
    (broadcastInDim S50000x1 ![0, 1] bcast_S1x1_S50000x1_0_1 (broadcastInDim S1x1 ![1] bcast_S1_S1x1_1 a13))

end Cert.Net

end
-- ==== Proof.KBody.lean ====
/-
  Each kernel body's stored value at the ideal values, read at one entry: the bf16 casts are the identity, each
  `tpu.matmul` into the zero accumulator is the 64-term sum of products along the contracted axis, the bias row is
  broadcast down the rows, so entry `(y, j)` of the block is `Cert.Net.rowAct` of row `y` of the two operand blocks.
-/
import proofs.«133444_j69784628625437_1_alg».proof.Proof.Gen.KernelIdeal.Skeleton
import proofs.«133444_j69784628625437_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.KernelIdeal.Facts₀

/-! ### The 10000-row product at an entry -/

private theorem lhs10000_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

private theorem lhs10000_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

private theorem rhs10000_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

private theorem rhs10000_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A product of a 10000×64 block with a 64×64 matrix into the zero block, read at entry `(y, j)`, is the 64-term sum
    of row `y` of the block against column `j` of the matrix. -/
theorem matmul10000_apply {φ₁ φ₂ : FTy} (L : FVec Ideal S10000x64 φ₁) (R : FVec Ideal S64x64 φ₂) (y : Fin 10000) (j : Fin 64) :
    matmul (F := Ideal) dot_S10000x64_S64x64_S10000x64_1_0_0_1_n_n none L R (constant (F := Ideal) S10000x64 .f32 0x00000000#32) (ix2 y j)
      = ∑ k : Fin 64, L (ix2 y k) * R (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 y j) ((ValueIdx.contrEquiv1 dot_S10000x64_S64x64_S10000x64_1_0_0_1_n_n 64 rfl rfl).symm k) = ix2 y k :=
    funext fun a => Fin.ext (by
      match a with
      | ⟨0, _⟩ => exact lhs10000_0 _ _
      | ⟨1, _⟩ => exact (lhs10000_1 _ _).trans hk)
  have er : dot_S10000x64_S64x64_S10000x64_1_0_0_1_n_n.rhsIdx (ix2 y j) ((ValueIdx.contrEquiv1 dot_S10000x64_S64x64_S10000x64_1_0_0_1_n_n 64 rfl rfl).symm k) = ix2 k j :=
    funext fun a => Fin.ext (by
      match a with
      | ⟨0, _⟩ => exact (rhs10000_0 _ _).trans hk
      | ⟨1, _⟩ => exact rhs10000_1 _ _)
  rw [el, er]

/-! ### The 5000-row product at an entry -/

private theorem lhs5000_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

private theorem lhs5000_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

private theorem rhs5000_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

private theorem rhs5000_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A product of a 5000×64 block with a 64×64 matrix into the zero block, read at entry `(y, j)`, is the 64-term sum
    of row `y` of the block against column `j` of the matrix. -/
theorem matmul5000_apply {φ₁ φ₂ : FTy} (L : FVec Ideal S5000x64 φ₁) (R : FVec Ideal S64x64 φ₂) (y : Fin 5000) (j : Fin 64) :
    matmul (F := Ideal) dot_S5000x64_S64x64_S5000x64_1_0_0_1_n_n none L R (constant (F := Ideal) S5000x64 .f32 0x00000000#32) (ix2 y j)
      = ∑ k : Fin 64, L (ix2 y k) * R (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 y j) ((ValueIdx.contrEquiv1 dot_S5000x64_S64x64_S5000x64_1_0_0_1_n_n 64 rfl rfl).symm k) = ix2 y k :=
    funext fun a => Fin.ext (by
      match a with
      | ⟨0, _⟩ => exact lhs5000_0 _ _
      | ⟨1, _⟩ => exact (lhs5000_1 _ _).trans hk)
  have er : dot_S5000x64_S64x64_S5000x64_1_0_0_1_n_n.rhsIdx (ix2 y j) ((ValueIdx.contrEquiv1 dot_S5000x64_S64x64_S5000x64_1_0_0_1_n_n 64 rfl rfl).symm k) = ix2 k j :=
    funext fun a => Fin.ext (by
      match a with
      | ⟨0, _⟩ => exact (rhs5000_0 _ _).trans hk
      | ⟨1, _⟩ => exact rhs5000_1 _ _)
  rw [el, er]

/-- Region 0 (edges, first layer): entry `(y, j)` of the stored block. -/
theorem k0_pay1_apply (x0 x1 : Vec Ideal S10000x64 .f32) (x2 x3 : Vec Ideal S64x64 .f32) (x4 : Vec Ideal S64 .f32)
    (y : Fin 10000) (j : Fin 64) :
    k0_pay1 (F := Ideal) x0 x1 x2 x3 x4 (ix2 y j)
      = Cert.Net.rowAct (fun k => x0 (ix2 y k)) (fun k => x1 (ix2 y k)) x2 x3 x4 j := by
  unfold k0_pay1 Cert.Net.rowAct
  -- the same-shape casts are the identity
  simp only [shapeCast_self]
  -- entry by entry: tanh of (first product + second product) + bias row
  refine congrArg Ideal.tanh ?_
  refine congrArg₂ (· + ·) (congrArg₂ (· + ·) ?_ ?_) ?_
  · exact matmul10000_apply (truncf .bf16 x0 _) (truncf .bf16 x2 _) y j
  · exact matmul10000_apply (truncf .bf16 x1 _) (truncf .bf16 x3 _) y j
  · exact (broadcastTo_1b_ab_apply _ _ y j).trans (shapeCast_a_1a_apply x4 _ 0 j)

/-- Region 1 (nodes, first layer). -/
theorem k1_pay1_apply (x0 x1 : Vec Ideal S5000x64 .f32) (x2 x3 : Vec Ideal S64x64 .f32) (x4 : Vec Ideal S64 .f32)
    (y : Fin 5000) (j : Fin 64) :
    k1_pay1 (F := Ideal) x0 x1 x2 x3 x4 (ix2 y j)
      = Cert.Net.rowAct (fun k => x0 (ix2 y k)) (fun k => x1 (ix2 y k)) x2 x3 x4 j := by
  unfold k1_pay1 Cert.Net.rowAct
  -- the same-shape casts are the identity
  simp only [shapeCast_self]
  -- entry by entry: tanh of (first product + second product) + bias row
  refine congrArg Ideal.tanh ?_
  refine congrArg₂ (· + ·) (congrArg₂ (· + ·) ?_ ?_) ?_
  · exact matmul5000_apply (truncf .bf16 x0 _) (truncf .bf16 x2 _) y j
  · exact matmul5000_apply (truncf .bf16 x1 _) (truncf .bf16 x3 _) y j
  · exact (broadcastTo_1b_ab_apply _ _ y j).trans (shapeCast_a_1a_apply x4 _ 0 j)

/-- Region 2 (edges, second layer). -/
theorem k2_pay1_apply (x0 x1 : Vec Ideal S10000x64 .f32) (x2 x3 : Vec Ideal S64x64 .f32) (x4 : Vec Ideal S64 .f32)
    (y : Fin 10000) (j : Fin 64) :
    k2_pay1 (F := Ideal) x0 x1 x2 x3 x4 (ix2 y j)
      = Cert.Net.rowAct (fun k => x0 (ix2 y k)) (fun k => x1 (ix2 y k)) x2 x3 x4 j := by
  unfold k2_pay1 Cert.Net.rowAct
  -- the same-shape casts are the identity
  simp only [shapeCast_self]
  -- entry by entry: tanh of (first product + second product) + bias row
  refine congrArg Ideal.tanh ?_
  refine congrArg₂ (· + ·) (congrArg₂ (· + ·) ?_ ?_) ?_
  · exact matmul10000_apply (truncf .bf16 x0 _) (truncf .bf16 x2 _) y j
  · exact matmul10000_apply (truncf .bf16 x1 _) (truncf .bf16 x3 _) y j
  · exact (broadcastTo_1b_ab_apply _ _ y j).trans (shapeCast_a_1a_apply x4 _ 0 j)

/-- Region 3 (nodes, second layer). -/
theorem k3_pay1_apply (x0 x1 : Vec Ideal S5000x64 .f32) (x2 x3 : Vec Ideal S64x64 .f32) (x4 : Vec Ideal S64 .f32)
    (y : Fin 5000) (j : Fin 64) :
    k3_pay1 (F := Ideal) x0 x1 x2 x3 x4 (ix2 y j)
      = Cert.Net.rowAct (fun k => x0 (ix2 y k)) (fun k => x1 (ix2 y k)) x2 x3 x4 j := by
  unfold k3_pay1 Cert.Net.rowAct
  -- the same-shape casts are the identity
  simp only [shapeCast_self]
  -- entry by entry: tanh of (first product + second product) + bias row
  refine congrArg Ideal.tanh ?_
  refine congrArg₂ (· + ·) (congrArg₂ (· + ·) ?_ ?_) ?_
  · exact matmul5000_apply (truncf .bf16 x0 _) (truncf .bf16 x2 _) y j
  · exact matmul5000_apply (truncf .bf16 x1 _) (truncf .bf16 x3 _) y j
  · exact (broadcastTo_1b_ab_apply _ _ y j).trans (shapeCast_a_1a_apply x4 _ 0 j)

end Cert.KernelIdeal.BodyValue

end
-- ==== Proof.KRegion0.lean ====
/-
  Region 0 as a function of whole arrays: the array its output window leaves after the last grid point is the dense
  step `tanh (x · Wh + e · We + b)` of the arrays its input windows read. Point `t` writes rows
  `t · 10000 … t · 10000 + 9999`, each from the same rows of the two row-blocked operands and the whole of the three
  resident ones; the 80 blocks tile the rows, so every entry is written exactly where the dense step says.
-/
import proofs.«133444_j69784628625437_1_alg».proof.Proof.Gen.KernelIdeal.Frame
import proofs.«133444_j69784628625437_1_alg».proof.Proof.KBody
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however the zeros are spelt. -/
private theorem zero_off2 : (![0, 0] : Fin 2 → Nat) = fun _ => 0 := funext fun a => by fin_cases a <;> rfl
private theorem zero_off1 : (![0] : Fin 1 → Nat) = fun _ => 0 := funext fun a => by fin_cases a <;> rfl

/-- The block each window holds at point `t`: the two row-blocked operands and the output at block `(t, 0)`,
    the two weight matrices and the bias at their only block. -/
private theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the first operand's block at point `t` is row `t · 10000 + p` of its array. -/
private theorem rows_read0_0 (c : Dev nD) (t : Fin cfg0.N) (p : Fin 10000) (k : Fin 64) (i : S800000x64.Idx)
    (h0 : (i 0).val = t.val * 10000 + p.val) (h1 : (i 1).val = k.val) :
    iblk0 V c 0 t (ix2 p k) = V c main_v10 i := by
  obtain ⟨e0, e1, -⟩ := block_index0 t
  show V c main_v10 (((cfg0.win 0).blk t).view.emb (ix2 p k)) = V c main_v10 i
  congr 1
  funext a; apply Fin.ext
  match a with
  | ⟨0, _⟩ => show win0_0.index t (0 : Fin 2) * 10000 + 1 * p.val = (i 0).val; omega
  | ⟨1, _⟩ => show win0_0.index t (1 : Fin 2) * 64 + 1 * k.val = (i 1).val; omega

/-- Row `p` of the second operand's block at point `t` is row `t · 10000 + p` of its array. -/
private theorem rows_read0_1 (c : Dev nD) (t : Fin cfg0.N) (p : Fin 10000) (k : Fin 64) (i : S800000x64.Idx)
    (h0 : (i 0).val = t.val * 10000 + p.val) (h1 : (i 1).val = k.val) :
    iblk0 V c 1 t (ix2 p k) = V c main_arg1 i := by
  obtain ⟨-, -, e0, e1, -⟩ := block_index0 t
  show V c main_arg1 (((cfg0.win 1).blk t).view.emb (ix2 p k)) = V c main_arg1 i
  congr 1
  funext a; apply Fin.ext
  match a with
  | ⟨0, _⟩ => show win0_1.index t (0 : Fin 2) * 10000 + 1 * p.val = (i 0).val; omega
  | ⟨1, _⟩ => show win0_1.index t (1 : Fin 2) * 64 + 1 * k.val = (i 1).val; omega

/-- The first weight matrix's block at every point is the whole matrix. -/
private theorem whole_read0_2 (c : Dev nD) (t : Fin cfg0.N) : iblk0 V c 2 t = V c main_v0 := by
  obtain ⟨-, -, -, -, e0, e1, -⟩ := block_index0 t
  funext z
  show V c main_v0 (((cfg0.win 2).blk t).view.emb z) = V c main_v0 z
  congr 1
  funext a; apply Fin.ext
  match a with
  | ⟨0, _⟩ => show win0_2.index t (0 : Fin 2) * 64 + 1 * (z 0).val = (z 0).val; omega
  | ⟨1, _⟩ => show win0_2.index t (1 : Fin 2) * 64 + 1 * (z 1).val = (z 1).val; omega

/-- The second weight matrix's block at every point is the whole matrix. -/
private theorem whole_read0_3 (c : Dev nD) (t : Fin cfg0.N) : iblk0 V c 3 t = V c main_v1 := by
  obtain ⟨-, -, -, -, -, -, e0, e1, -⟩ := block_index0 t
  funext z
  show V c main_v1 (((cfg0.win 3).blk t).view.emb z) = V c main_v1 z
  congr 1
  funext a; apply Fin.ext
  match a with
  | ⟨0, _⟩ => show win0_3.index t (0 : Fin 2) * 64 + 1 * (z 0).val = (z 0).val; omega
  | ⟨1, _⟩ => show win0_3.index t (1 : Fin 2) * 64 + 1 * (z 1).val = (z 1).val; omega

/-- The bias's block at every point is the whole bias. -/
private theorem whole_read0_4 (c : Dev nD) (t : Fin cfg0.N) : iblk0 V c 4 t = V c main_arg5 := by
  obtain ⟨-, -, -, -, -, -, -, -, e0, -⟩ := block_index0 t
  funext z
  show V c main_arg5 (((cfg0.win 4).blk t).view.emb z) = V c main_arg5 z
  congr 1
  funext a; apply Fin.ext
  match a with
  | ⟨0, _⟩ => show win0_4.index t (0 : Fin 1) * 64 + 1 * (z 0).val = (z 0).val; omega

/-- Entry `(p, q)` of what point `t` stores is entry `(t · 10000 + p, q)` of the dense step of the arrays. -/
private theorem written_entry0 (c : Dev nD) (t : Fin cfg0.N) (p : Fin 10000) (q : Fin 64) (i : S800000x64.Idx)
    (h0 : (i 0).val = t.val * 10000 + p.val) (h1 : (i 1).val = q.val) :
    k0_pay1 (F := Ideal) (iblk0 V c 0 t) (iblk0 V c 1 t) (iblk0 V c 2 t) (iblk0 V c 3 t) (iblk0 V c 4 t) (ix2 p q)
      = Cert.Net.dense800 (V c main_v10) (V c main_arg1) (V c main_v0) (V c main_v1) (V c main_arg5) i := by
  rw [BodyValue.k0_pay1_apply, whole_read0_2, whole_read0_3, whole_read0_4]
  have hx : (fun k : Fin 64 => iblk0 V c 0 t (ix2 p k)) = fun k => V c main_v10 (ix2 (i 0) k) :=
    funext fun k => rows_read0_0 V c t p k (ix2 (i 0) k) h0 rfl
  have he : (fun k : Fin 64 => iblk0 V c 1 t (ix2 p k)) = fun k => V c main_arg1 (ix2 (i 0) k) :=
    funext fun k => rows_read0_1 V c t p k (ix2 (i 0) k) h0 rfl
  have hq : q = i 1 := Fin.ext h1.symm
  rw [hx, he, hq]
  rfl

/-- What point `t` writes back is block `t` (rows `t · 10000 … t · 10000 + 9999`) of the dense step of the arrays. -/
private theorem rows_written0 (c : Dev nD) (t : Fin cfg0.N) :
    (dat0 (F := Ideal) V c).flushed 5 t = ((cfg0.win 5).blk t).view.read (Elt Ideal)
      (Cert.Net.dense800 (V c main_v10) (V c main_arg1) (V c main_v0) (V c main_v1) (V c main_arg5)) := by
  show (cfg0.win 5).cut (grid0.coords t) ((dat0 (F := Ideal) V c).after 5 t) = _
  rw [after0_5]
  unfold out0_5
  rw [View.canon_unit_zero zero_off2]
  simp only [View.ld_unit_zero (S := S10000x64) zero_off2, View.ld_unit_zero (S := S64x64) zero_off2,
    View.ld_unit_zero (S := S64) zero_off1]
  obtain ⟨-, -, -, -, -, -, -, -, -, e0, e1⟩ := block_index0 t
  funext y
  obtain ⟨p, q, rfl⟩ : ∃ (p : Fin 10000) (q : Fin 64), y = ix2 p q := ⟨y 0, y 1, eq_ix2 y⟩
  refine written_entry0 V c t p q (((cfg0.win 5).blk t).view.emb (ix2 p q)) ?_ ?_
  · show win0_5.index t (0 : Fin 2) * 10000 + 1 * p.val = t.val * 10000 + p.val; omega
  · show win0_5.index t (1 : Fin 2) * 64 + 1 * q.val = q.val; omega

/-- An entry of the array is in point `t`'s block iff each coordinate is in the block's range on its axis. -/
private theorem mem_rows0 (t : Fin cfg0.N) (i : S800000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v11).slice (win0_5.rect t)).set ↔ _
  rw [View.set_slice_whole, Rect.mem_set_unit]
  exact Iff.rfl

/-- Every entry of the array is written by some point: row `r` by point `r / 10000`. -/
private theorem rows_covered0 (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hN : cfg0.N = 80 := N_0
  let t : Fin cfg0.N := ⟨(i 0).val / 10000, by rw [hN]; omega⟩
  have ht : t.val = (i 0).val / 10000 := rfl
  obtain ⟨-, -, -, -, -, -, -, -, -, e0, e1⟩ := block_index0 t
  refine ⟨t, flush0_5 t, ?_⟩
  rw [mem_rows0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- What region 0's output array holds after its last point, from the region-entry contents `V`. -/
theorem region0_out (c : Dev nD) :
    (dat0 (F := Ideal) V c).arrAt 5 cfg0.N
      = Cert.Net.dense800 (V c main_v10) (V c main_arg1) (V c main_v0) (V c main_v1) (V c main_arg5) :=
  (dat0 (F := Ideal) V c).arrAt_eq_of_cover 5
    (Cert.Net.dense800 (V c main_v10) (V c main_arg1) (V c main_v0) (V c main_v1) (V c main_arg5))
    (fun t _ => rows_written0 V c t) rows_covered0

end Cert.KernelIdeal.RegionValue

end
-- ==== Proof.KRegion1.lean ====
/-
  Region 1 as a function of whole arrays: the array its output window leaves after the last grid point is the dense
  step `tanh (x · Wh + e · We + b)` of the arrays its input windows read. Point `t` writes rows
  `t · 5000 … t · 5000 + 4999`, each from the same rows of the two row-blocked operands and the whole of the three
  resident ones; the 10 blocks tile the rows, so every entry is written exactly where the dense step says.
-/
import proofs.«133444_j69784628625437_1_alg».proof.Proof.Gen.KernelIdeal.Frame
import proofs.«133444_j69784628625437_1_alg».proof.Proof.KBody
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however the zeros are spelt. -/
private theorem zero_off2 : (![0, 0] : Fin 2 → Nat) = fun _ => 0 := funext fun a => by fin_cases a <;> rfl
private theorem zero_off1 : (![0] : Fin 1 → Nat) = fun _ => 0 := funext fun a => by fin_cases a <;> rfl

/-- The block each window holds at point `t`: the two row-blocked operands and the output at block `(t, 0)`,
    the two weight matrices and the bias at their only block. -/
private theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the first operand's block at point `t` is row `t · 5000 + p` of its array. -/
private theorem rows_read1_0 (c : Dev nD) (t : Fin cfg1.N) (p : Fin 5000) (k : Fin 64) (i : S50000x64.Idx)
    (h0 : (i 0).val = t.val * 5000 + p.val) (h1 : (i 1).val = k.val) :
    iblk1 V c 0 t (ix2 p k) = V c main_arg0 i := by
  obtain ⟨e0, e1, -⟩ := block_index1 t
  show V c main_arg0 (((cfg1.win 0).blk t).view.emb (ix2 p k)) = V c main_arg0 i
  congr 1
  funext a; apply Fin.ext
  match a with
  | ⟨0, _⟩ => show win1_0.index t (0 : Fin 2) * 5000 + 1 * p.val = (i 0).val; omega
  | ⟨1, _⟩ => show win1_0.index t (1 : Fin 2) * 64 + 1 * k.val = (i 1).val; omega

/-- Row `p` of the second operand's block at point `t` is row `t · 5000 + p` of its array. -/
private theorem rows_read1_1 (c : Dev nD) (t : Fin cfg1.N) (p : Fin 5000) (k : Fin 64) (i : S50000x64.Idx)
    (h0 : (i 0).val = t.val * 5000 + p.val) (h1 : (i 1).val = k.val) :
    iblk1 V c 1 t (ix2 p k) = V c main_v14 i := by
  obtain ⟨-, -, e0, e1, -⟩ := block_index1 t
  show V c main_v14 (((cfg1.win 1).blk t).view.emb (ix2 p k)) = V c main_v14 i
  congr 1
  funext a; apply Fin.ext
  match a with
  | ⟨0, _⟩ => show win1_1.index t (0 : Fin 2) * 5000 + 1 * p.val = (i 0).val; omega
  | ⟨1, _⟩ => show win1_1.index t (1 : Fin 2) * 64 + 1 * k.val = (i 1).val; omega

/-- The first weight matrix's block at every point is the whole matrix. -/
private theorem whole_read1_2 (c : Dev nD) (t : Fin cfg1.N) : iblk1 V c 2 t = V c main_v2 := by
  obtain ⟨-, -, -, -, e0, e1, -⟩ := block_index1 t
  funext z
  show V c main_v2 (((cfg1.win 2).blk t).view.emb z) = V c main_v2 z
  congr 1
  funext a; apply Fin.ext
  match a with
  | ⟨0, _⟩ => show win1_2.index t (0 : Fin 2) * 64 + 1 * (z 0).val = (z 0).val; omega
  | ⟨1, _⟩ => show win1_2.index t (1 : Fin 2) * 64 + 1 * (z 1).val = (z 1).val; omega

/-- The second weight matrix's block at every point is the whole matrix. -/
private theorem whole_read1_3 (c : Dev nD) (t : Fin cfg1.N) : iblk1 V c 3 t = V c main_v3 := by
  obtain ⟨-, -, -, -, -, -, e0, e1, -⟩ := block_index1 t
  funext z
  show V c main_v3 (((cfg1.win 3).blk t).view.emb z) = V c main_v3 z
  congr 1
  funext a; apply Fin.ext
  match a with
  | ⟨0, _⟩ => show win1_3.index t (0 : Fin 2) * 64 + 1 * (z 0).val = (z 0).val; omega
  | ⟨1, _⟩ => show win1_3.index t (1 : Fin 2) * 64 + 1 * (z 1).val = (z 1).val; omega

/-- The bias's block at every point is the whole bias. -/
private theorem whole_read1_4 (c : Dev nD) (t : Fin cfg1.N) : iblk1 V c 4 t = V c main_arg7 := by
  obtain ⟨-, -, -, -, -, -, -, -, e0, -⟩ := block_index1 t
  funext z
  show V c main_arg7 (((cfg1.win 4).blk t).view.emb z) = V c main_arg7 z
  congr 1
  funext a; apply Fin.ext
  match a with
  | ⟨0, _⟩ => show win1_4.index t (0 : Fin 1) * 64 + 1 * (z 0).val = (z 0).val; omega

/-- Entry `(p, q)` of what point `t` stores is entry `(t · 5000 + p, q)` of the dense step of the arrays. -/
private theorem written_entry1 (c : Dev nD) (t : Fin cfg1.N) (p : Fin 5000) (q : Fin 64) (i : S50000x64.Idx)
    (h0 : (i 0).val = t.val * 5000 + p.val) (h1 : (i 1).val = q.val) :
    k1_pay1 (F := Ideal) (iblk1 V c 0 t) (iblk1 V c 1 t) (iblk1 V c 2 t) (iblk1 V c 3 t) (iblk1 V c 4 t) (ix2 p q)
      = Cert.Net.dense50 (V c main_arg0) (V c main_v14) (V c main_v2) (V c main_v3) (V c main_arg7) i := by
  rw [BodyValue.k1_pay1_apply, whole_read1_2, whole_read1_3, whole_read1_4]
  have hx : (fun k : Fin 64 => iblk1 V c 0 t (ix2 p k)) = fun k => V c main_arg0 (ix2 (i 0) k) :=
    funext fun k => rows_read1_0 V c t p k (ix2 (i 0) k) h0 rfl
  have he : (fun k : Fin 64 => iblk1 V c 1 t (ix2 p k)) = fun k => V c main_v14 (ix2 (i 0) k) :=
    funext fun k => rows_read1_1 V c t p k (ix2 (i 0) k) h0 rfl
  have hq : q = i 1 := Fin.ext h1.symm
  rw [hx, he, hq]
  rfl

/-- What point `t` writes back is block `t` (rows `t · 5000 … t · 5000 + 4999`) of the dense step of the arrays. -/
private theorem rows_written1 (c : Dev nD) (t : Fin cfg1.N) :
    (dat1 (F := Ideal) V c).flushed 5 t = ((cfg1.win 5).blk t).view.read (Elt Ideal)
      (Cert.Net.dense50 (V c main_arg0) (V c main_v14) (V c main_v2) (V c main_v3) (V c main_arg7)) := by
  show (cfg1.win 5).cut (grid1.coords t) ((dat1 (F := Ideal) V c).after 5 t) = _
  rw [after1_5]
  unfold out1_5
  rw [View.canon_unit_zero zero_off2]
  simp only [View.ld_unit_zero (S := S5000x64) zero_off2, View.ld_unit_zero (S := S64x64) zero_off2,
    View.ld_unit_zero (S := S64) zero_off1]
  obtain ⟨-, -, -, -, -, -, -, -, -, e0, e1⟩ := block_index1 t
  funext y
  obtain ⟨p, q, rfl⟩ : ∃ (p : Fin 5000) (q : Fin 64), y = ix2 p q := ⟨y 0, y 1, eq_ix2 y⟩
  refine written_entry1 V c t p q (((cfg1.win 5).blk t).view.emb (ix2 p q)) ?_ ?_
  · show win1_5.index t (0 : Fin 2) * 5000 + 1 * p.val = t.val * 5000 + p.val; omega
  · show win1_5.index t (1 : Fin 2) * 64 + 1 * q.val = q.val; omega

/-- An entry of the array is in point `t`'s block iff each coordinate is in the block's range on its axis. -/
private theorem mem_rows1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v15).slice (win1_5.rect t)).set ↔ _
  rw [View.set_slice_whole, Rect.mem_set_unit]
  exact Iff.rfl

/-- Every entry of the array is written by some point: row `r` by point `r / 5000`. -/
private theorem rows_covered1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, e0, e1⟩ := block_index1 t
  refine ⟨t, flush1_5 t, ?_⟩
  rw [mem_rows1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- What region 1's output array holds after its last point, from the region-entry contents `V`. -/
theorem region1_out (c : Dev nD) :
    (dat1 (F := Ideal) V c).arrAt 5 cfg1.N
      = Cert.Net.dense50 (V c main_arg0) (V c main_v14) (V c main_v2) (V c main_v3) (V c main_arg7) :=
  (dat1 (F := Ideal) V c).arrAt_eq_of_cover 5
    (Cert.Net.dense50 (V c main_arg0) (V c main_v14) (V c main_v2) (V c main_v3) (V c main_arg7))
    (fun t _ => rows_written1 V c t) rows_covered1

end Cert.KernelIdeal.RegionValue

end
-- ==== Proof.KRegion2.lean ====
/-
  Region 2 as a function of whole arrays: the array its output window leaves after the last grid point is the dense
  step `tanh (x · Wh + e · We + b)` of the arrays its input windows read. Point `t` writes rows
  `t · 10000 … t · 10000 + 9999`, each from the same rows of the two row-blocked operands and the whole of the three
  resident ones; the 80 blocks tile the rows, so every entry is written exactly where the dense step says.
-/
import proofs.«133444_j69784628625437_1_alg».proof.Proof.Gen.KernelIdeal.Frame
import proofs.«133444_j69784628625437_1_alg».proof.Proof.KBody
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however the zeros are spelt. -/
private theorem zero_off2 : (![0, 0] : Fin 2 → Nat) = fun _ => 0 := funext fun a => by fin_cases a <;> rfl
private theorem zero_off1 : (![0] : Fin 1 → Nat) = fun _ => 0 := funext fun a => by fin_cases a <;> rfl

/-- The block each window holds at point `t`: the two row-blocked operands and the output at block `(t, 0)`,
    the two weight matrices and the bias at their only block. -/
private theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of the first operand's block at point `t` is row `t · 10000 + p` of its array. -/
private theorem rows_read2_0 (c : Dev nD) (t : Fin cfg2.N) (p : Fin 10000) (k : Fin 64) (i : S800000x64.Idx)
    (h0 : (i 0).val = t.val * 10000 + p.val) (h1 : (i 1).val = k.val) :
    iblk2 V c 0 t (ix2 p k) = V c main_v26 i := by
  obtain ⟨e0, e1, -⟩ := block_index2 t
  show V c main_v26 (((cfg2.win 0).blk t).view.emb (ix2 p k)) = V c main_v26 i
  congr 1
  funext a; apply Fin.ext
  match a with
  | ⟨0, _⟩ => show win2_0.index t (0 : Fin 2) * 10000 + 1 * p.val = (i 0).val; omega
  | ⟨1, _⟩ => show win2_0.index t (1 : Fin 2) * 64 + 1 * k.val = (i 1).val; omega

/-- Row `p` of the second operand's block at point `t` is row `t · 10000 + p` of its array. -/
private theorem rows_read2_1 (c : Dev nD) (t : Fin cfg2.N) (p : Fin 10000) (k : Fin 64) (i : S800000x64.Idx)
    (h0 : (i 0).val = t.val * 10000 + p.val) (h1 : (i 1).val = k.val) :
    iblk2 V c 1 t (ix2 p k) = V c main_arg1 i := by
  obtain ⟨-, -, e0, e1, -⟩ := block_index2 t
  show V c main_arg1 (((cfg2.win 1).blk t).view.emb (ix2 p k)) = V c main_arg1 i
  congr 1
  funext a; apply Fin.ext
  match a with
  | ⟨0, _⟩ => show win2_1.index t (0 : Fin 2) * 10000 + 1 * p.val = (i 0).val; omega
  | ⟨1, _⟩ => show win2_1.index t (1 : Fin 2) * 64 + 1 * k.val = (i 1).val; omega

/-- The first weight matrix's block at every point is the whole matrix. -/
private theorem whole_read2_2 (c : Dev nD) (t : Fin cfg2.N) : iblk2 V c 2 t = V c main_v16 := by
  obtain ⟨-, -, -, -, e0, e1, -⟩ := block_index2 t
  funext z
  show V c main_v16 (((cfg2.win 2).blk t).view.emb z) = V c main_v16 z
  congr 1
  funext a; apply Fin.ext
  match a with
  | ⟨0, _⟩ => show win2_2.index t (0 : Fin 2) * 64 + 1 * (z 0).val = (z 0).val; omega
  | ⟨1, _⟩ => show win2_2.index t (1 : Fin 2) * 64 + 1 * (z 1).val = (z 1).val; omega

/-- The second weight matrix's block at every point is the whole matrix. -/
private theorem whole_read2_3 (c : Dev nD) (t : Fin cfg2.N) : iblk2 V c 3 t = V c main_v17 := by
  obtain ⟨-, -, -, -, -, -, e0, e1, -⟩ := block_index2 t
  funext z
  show V c main_v17 (((cfg2.win 3).blk t).view.emb z) = V c main_v17 z
  congr 1
  funext a; apply Fin.ext
  match a with
  | ⟨0, _⟩ => show win2_3.index t (0 : Fin 2) * 64 + 1 * (z 0).val = (z 0).val; omega
  | ⟨1, _⟩ => show win2_3.index t (1 : Fin 2) * 64 + 1 * (z 1).val = (z 1).val; omega

/-- The bias's block at every point is the whole bias. -/
private theorem whole_read2_4 (c : Dev nD) (t : Fin cfg2.N) : iblk2 V c 4 t = V c main_arg9 := by
  obtain ⟨-, -, -, -, -, -, -, -, e0, -⟩ := block_index2 t
  funext z
  show V c main_arg9 (((cfg2.win 4).blk t).view.emb z) = V c main_arg9 z
  congr 1
  funext a; apply Fin.ext
  match a with
  | ⟨0, _⟩ => show win2_4.index t (0 : Fin 1) * 64 + 1 * (z 0).val = (z 0).val; omega

/-- Entry `(p, q)` of what point `t` stores is entry `(t · 10000 + p, q)` of the dense step of the arrays. -/
private theorem written_entry2 (c : Dev nD) (t : Fin cfg2.N) (p : Fin 10000) (q : Fin 64) (i : S800000x64.Idx)
    (h0 : (i 0).val = t.val * 10000 + p.val) (h1 : (i 1).val = q.val) :
    k2_pay1 (F := Ideal) (iblk2 V c 0 t) (iblk2 V c 1 t) (iblk2 V c 2 t) (iblk2 V c 3 t) (iblk2 V c 4 t) (ix2 p q)
      = Cert.Net.dense800 (V c main_v26) (V c main_arg1) (V c main_v16) (V c main_v17) (V c main_arg9) i := by
  rw [BodyValue.k2_pay1_apply, whole_read2_2, whole_read2_3, whole_read2_4]
  have hx : (fun k : Fin 64 => iblk2 V c 0 t (ix2 p k)) = fun k => V c main_v26 (ix2 (i 0) k) :=
    funext fun k => rows_read2_0 V c t p k (ix2 (i 0) k) h0 rfl
  have he : (fun k : Fin 64 => iblk2 V c 1 t (ix2 p k)) = fun k => V c main_arg1 (ix2 (i 0) k) :=
    funext fun k => rows_read2_1 V c t p k (ix2 (i 0) k) h0 rfl
  have hq : q = i 1 := Fin.ext h1.symm
  rw [hx, he, hq]
  rfl

/-- What point `t` writes back is block `t` (rows `t · 10000 … t · 10000 + 9999`) of the dense step of the arrays. -/
private theorem rows_written2 (c : Dev nD) (t : Fin cfg2.N) :
    (dat2 (F := Ideal) V c).flushed 5 t = ((cfg2.win 5).blk t).view.read (Elt Ideal)
      (Cert.Net.dense800 (V c main_v26) (V c main_arg1) (V c main_v16) (V c main_v17) (V c main_arg9)) := by
  show (cfg2.win 5).cut (grid2.coords t) ((dat2 (F := Ideal) V c).after 5 t) = _
  rw [after2_5]
  unfold out2_5
  rw [View.canon_unit_zero zero_off2]
  simp only [View.ld_unit_zero (S := S10000x64) zero_off2, View.ld_unit_zero (S := S64x64) zero_off2,
    View.ld_unit_zero (S := S64) zero_off1]
  obtain ⟨-, -, -, -, -, -, -, -, -, e0, e1⟩ := block_index2 t
  funext y
  obtain ⟨p, q, rfl⟩ : ∃ (p : Fin 10000) (q : Fin 64), y = ix2 p q := ⟨y 0, y 1, eq_ix2 y⟩
  refine written_entry2 V c t p q (((cfg2.win 5).blk t).view.emb (ix2 p q)) ?_ ?_
  · show win2_5.index t (0 : Fin 2) * 10000 + 1 * p.val = t.val * 10000 + p.val; omega
  · show win2_5.index t (1 : Fin 2) * 64 + 1 * q.val = q.val; omega

/-- An entry of the array is in point `t`'s block iff each coordinate is in the block's range on its axis. -/
private theorem mem_rows2 (t : Fin cfg2.N) (i : S800000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v27).slice (win2_5.rect t)).set ↔ _
  rw [View.set_slice_whole, Rect.mem_set_unit]
  exact Iff.rfl

/-- Every entry of the array is written by some point: row `r` by point `r / 10000`. -/
private theorem rows_covered2 (i : S800000x64.Idx) :
    ∃ t : Fin cfg2.N, (cfg2.win 5).flush t = true ∧ i ∈ ((cfg2.win 5).blk t).view.set := by
  have hi0 : (i 0).val < 800000 := (i 0).isLt
  have hi1 : (i 1).val < 64 := (i 1).isLt
  have hN : cfg2.N = 80 := N_2
  let t : Fin cfg2.N := ⟨(i 0).val / 10000, by rw [hN]; omega⟩
  have ht : t.val = (i 0).val / 10000 := rfl
  obtain ⟨-, -, -, -, -, -, -, -, -, e0, e1⟩ := block_index2 t
  refine ⟨t, flush2_5 t, ?_⟩
  rw [mem_rows2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- What region 2's output array holds after its last point, from the region-entry contents `V`. -/
theorem region2_out (c : Dev nD) :
    (dat2 (F := Ideal) V c).arrAt 5 cfg2.N
      = Cert.Net.dense800 (V c main_v26) (V c main_arg1) (V c main_v16) (V c main_v17) (V c main_arg9) :=
  (dat2 (F := Ideal) V c).arrAt_eq_of_cover 5
    (Cert.Net.dense800 (V c main_v26) (V c main_arg1) (V c main_v16) (V c main_v17) (V c main_arg9))
    (fun t _ => rows_written2 V c t) rows_covered2

end Cert.KernelIdeal.RegionValue

end
-- ==== Proof.KRegion3.lean ====
/-
  Region 3 as a function of whole arrays: the array its output window leaves after the last grid point is the dense
  step `tanh (x · Wh + e · We + b)` of the arrays its input windows read. Point `t` writes rows
  `t · 5000 … t · 5000 + 4999`, each from the same rows of the two row-blocked operands and the whole of the three
  resident ones; the 10 blocks tile the rows, so every entry is written exactly where the dense step says.
-/
import proofs.«133444_j69784628625437_1_alg».proof.Proof.Gen.KernelIdeal.Frame
import proofs.«133444_j69784628625437_1_alg».proof.Proof.KBody
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however the zeros are spelt. -/
private theorem zero_off2 : (![0, 0] : Fin 2 → Nat) = fun _ => 0 := funext fun a => by fin_cases a <;> rfl
private theorem zero_off1 : (![0] : Fin 1 → Nat) = fun _ => 0 := funext fun a => by fin_cases a <;> rfl

/-- The block each window holds at point `t`: the two row-blocked operands and the output at block `(t, 0)`,
    the two weight matrices and the bias at their only block. -/
private theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Row `p` of the first operand's block at point `t` is row `t · 5000 + p` of its array. -/
private theorem rows_read3_0 (c : Dev nD) (t : Fin cfg3.N) (p : Fin 5000) (k : Fin 64) (i : S50000x64.Idx)
    (h0 : (i 0).val = t.val * 5000 + p.val) (h1 : (i 1).val = k.val) :
    iblk3 V c 0 t (ix2 p k) = V c main_v15 i := by
  obtain ⟨e0, e1, -⟩ := block_index3 t
  show V c main_v15 (((cfg3.win 0).blk t).view.emb (ix2 p k)) = V c main_v15 i
  congr 1
  funext a; apply Fin.ext
  match a with
  | ⟨0, _⟩ => show win3_0.index t (0 : Fin 2) * 5000 + 1 * p.val = (i 0).val; omega
  | ⟨1, _⟩ => show win3_0.index t (1 : Fin 2) * 64 + 1 * k.val = (i 1).val; omega

/-- Row `p` of the second operand's block at point `t` is row `t · 5000 + p` of its array. -/
private theorem rows_read3_1 (c : Dev nD) (t : Fin cfg3.N) (p : Fin 5000) (k : Fin 64) (i : S50000x64.Idx)
    (h0 : (i 0).val = t.val * 5000 + p.val) (h1 : (i 1).val = k.val) :
    iblk3 V c 1 t (ix2 p k) = V c main_v30 i := by
  obtain ⟨-, -, e0, e1, -⟩ := block_index3 t
  show V c main_v30 (((cfg3.win 1).blk t).view.emb (ix2 p k)) = V c main_v30 i
  congr 1
  funext a; apply Fin.ext
  match a with
  | ⟨0, _⟩ => show win3_1.index t (0 : Fin 2) * 5000 + 1 * p.val = (i 0).val; omega
  | ⟨1, _⟩ => show win3_1.index t (1 : Fin 2) * 64 + 1 * k.val = (i 1).val; omega

/-- The first weight matrix's block at every point is the whole matrix. -/
private theorem whole_read3_2 (c : Dev nD) (t : Fin cfg3.N) : iblk3 V c 2 t = V c main_v18 := by
  obtain ⟨-, -, -, -, e0, e1, -⟩ := block_index3 t
  funext z
  show V c main_v18 (((cfg3.win 2).blk t).view.emb z) = V c main_v18 z
  congr 1
  funext a; apply Fin.ext
  match a with
  | ⟨0, _⟩ => show win3_2.index t (0 : Fin 2) * 64 + 1 * (z 0).val = (z 0).val; omega
  | ⟨1, _⟩ => show win3_2.index t (1 : Fin 2) * 64 + 1 * (z 1).val = (z 1).val; omega

/-- The second weight matrix's block at every point is the whole matrix. -/
private theorem whole_read3_3 (c : Dev nD) (t : Fin cfg3.N) : iblk3 V c 3 t = V c main_v19 := by
  obtain ⟨-, -, -, -, -, -, e0, e1, -⟩ := block_index3 t
  funext z
  show V c main_v19 (((cfg3.win 3).blk t).view.emb z) = V c main_v19 z
  congr 1
  funext a; apply Fin.ext
  match a with
  | ⟨0, _⟩ => show win3_3.index t (0 : Fin 2) * 64 + 1 * (z 0).val = (z 0).val; omega
  | ⟨1, _⟩ => show win3_3.index t (1 : Fin 2) * 64 + 1 * (z 1).val = (z 1).val; omega

/-- The bias's block at every point is the whole bias. -/
private theorem whole_read3_4 (c : Dev nD) (t : Fin cfg3.N) : iblk3 V c 4 t = V c main_arg11 := by
  obtain ⟨-, -, -, -, -, -, -, -, e0, -⟩ := block_index3 t
  funext z
  show V c main_arg11 (((cfg3.win 4).blk t).view.emb z) = V c main_arg11 z
  congr 1
  funext a; apply Fin.ext
  match a with
  | ⟨0, _⟩ => show win3_4.index t (0 : Fin 1) * 64 + 1 * (z 0).val = (z 0).val; omega

/-- Entry `(p, q)` of what point `t` stores is entry `(t · 5000 + p, q)` of the dense step of the arrays. -/
private theorem written_entry3 (c : Dev nD) (t : Fin cfg3.N) (p : Fin 5000) (q : Fin 64) (i : S50000x64.Idx)
    (h0 : (i 0).val = t.val * 5000 + p.val) (h1 : (i 1).val = q.val) :
    k3_pay1 (F := Ideal) (iblk3 V c 0 t) (iblk3 V c 1 t) (iblk3 V c 2 t) (iblk3 V c 3 t) (iblk3 V c 4 t) (ix2 p q)
      = Cert.Net.dense50 (V c main_v15) (V c main_v30) (V c main_v18) (V c main_v19) (V c main_arg11) i := by
  rw [BodyValue.k3_pay1_apply, whole_read3_2, whole_read3_3, whole_read3_4]
  have hx : (fun k : Fin 64 => iblk3 V c 0 t (ix2 p k)) = fun k => V c main_v15 (ix2 (i 0) k) :=
    funext fun k => rows_read3_0 V c t p k (ix2 (i 0) k) h0 rfl
  have he : (fun k : Fin 64 => iblk3 V c 1 t (ix2 p k)) = fun k => V c main_v30 (ix2 (i 0) k) :=
    funext fun k => rows_read3_1 V c t p k (ix2 (i 0) k) h0 rfl
  have hq : q = i 1 := Fin.ext h1.symm
  rw [hx, he, hq]
  rfl

/-- What point `t` writes back is block `t` (rows `t · 5000 … t · 5000 + 4999`) of the dense step of the arrays. -/
private theorem rows_written3 (c : Dev nD) (t : Fin cfg3.N) :
    (dat3 (F := Ideal) V c).flushed 5 t = ((cfg3.win 5).blk t).view.read (Elt Ideal)
      (Cert.Net.dense50 (V c main_v15) (V c main_v30) (V c main_v18) (V c main_v19) (V c main_arg11)) := by
  show (cfg3.win 5).cut (grid3.coords t) ((dat3 (F := Ideal) V c).after 5 t) = _
  rw [after3_5]
  unfold out3_5
  rw [View.canon_unit_zero zero_off2]
  simp only [View.ld_unit_zero (S := S5000x64) zero_off2, View.ld_unit_zero (S := S64x64) zero_off2,
    View.ld_unit_zero (S := S64) zero_off1]
  obtain ⟨-, -, -, -, -, -, -, -, -, e0, e1⟩ := block_index3 t
  funext y
  obtain ⟨p, q, rfl⟩ : ∃ (p : Fin 5000) (q : Fin 64), y = ix2 p q := ⟨y 0, y 1, eq_ix2 y⟩
  refine written_entry3 V c t p q (((cfg3.win 5).blk t).view.emb (ix2 p q)) ?_ ?_
  · show win3_5.index t (0 : Fin 2) * 5000 + 1 * p.val = t.val * 5000 + p.val; omega
  · show win3_5.index t (1 : Fin 2) * 64 + 1 * q.val = q.val; omega

/-- An entry of the array is in point `t`'s block iff each coordinate is in the block's range on its axis. -/
private theorem mem_rows3 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v31).slice (win3_5.rect t)).set ↔ _
  rw [View.set_slice_whole, Rect.mem_set_unit]
  exact Iff.rfl

/-- Every entry of the array is written by some point: row `r` by point `r / 5000`. -/
private theorem rows_covered3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have ht : t.val = (i 0).val / 5000 := rfl
  obtain ⟨-, -, -, -, -, -, -, -, -, e0, e1⟩ := block_index3 t
  refine ⟨t, flush3_5 t, ?_⟩
  rw [mem_rows3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- What region 3's output array holds after its last point, from the region-entry contents `V`. -/
theorem region3_out (c : Dev nD) :
    (dat3 (F := Ideal) V c).arrAt 5 cfg3.N
      = Cert.Net.dense50 (V c main_v15) (V c main_v30) (V c main_v18) (V c main_v19) (V c main_arg11) :=
  (dat3 (F := Ideal) V c).arrAt_eq_of_cover 5
    (Cert.Net.dense50 (V c main_v15) (V c main_v30) (V c main_v18) (V c main_v19) (V c main_arg11))
    (fun t _ => rows_written3 V c t) rows_covered3

end Cert.KernelIdeal.RegionValue

end
-- ==== Proof.KChain.lean ====
/-
  The fold of buffer contents through @main, read at the result buffer: the last host stretch is the product with
  `Wo` plus `bo` of region 3's output; each region's output is the dense step of its input arrays (the region
  modules); each host stretch between regions is the gather of sender rows, the scatter-add into receiver rows, or
  the two halves of a stacked weight matrix; and no stretch or region writes an argument array. Composed, the result
  is `Cert.Net.net` of the fourteen arguments as launched.
-/
import proofs.«133444_j69784628625437_1_alg».proof.Proof.Gen.KernelIdeal.Frame
import proofs.«133444_j69784628625437_1_alg».proof.Proof.KRegion0
import proofs.«133444_j69784628625437_1_alg».proof.Proof.KRegion1
import proofs.«133444_j69784628625437_1_alg».proof.Proof.KRegion2
import proofs.«133444_j69784628625437_1_alg».proof.Proof.KRegion3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg)

/-- A stretch of host operations leaves a buffer none of them writes as it was. -/
local macro "host_skip" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))))

/-! ## After the first host stretch: the halves of the first layer's weight matrices, the gathered sender rows -/

private theorem W1_arg0 (c : Dev nD) :
    W1 (F := Ideal) m ρ c (Proc.devRef .tc main_arg0)
      = (m ((c : Thread nD τ).loc main_arg0)) := by
  host_skip hostOps0
private theorem W1_arg1 (c : Dev nD) :
    W1 (F := Ideal) m ρ c (Proc.devRef .tc main_arg1)
      = (m ((c : Thread nD τ).loc main_arg1)) := by
  host_skip hostOps0
private theorem W1_arg2 (c : Dev nD) :
    W1 (F := Ideal) m ρ c (Proc.devRef .tc main_arg2)
      = (m ((c : Thread nD τ).loc main_arg2)) := by
  host_skip hostOps0
private theorem W1_arg3 (c : Dev nD) :
    W1 (F := Ideal) m ρ c (Proc.devRef .tc main_arg3)
      = (m ((c : Thread nD τ).loc main_arg3)) := by
  host_skip hostOps0
private theorem W1_arg5 (c : Dev nD) :
    W1 (F := Ideal) m ρ c (Proc.devRef .tc main_arg5)
      = (m ((c : Thread nD τ).loc main_arg5)) := by
  host_skip hostOps0
private theorem W1_arg7 (c : Dev nD) :
    W1 (F := Ideal) m ρ c (Proc.devRef .tc main_arg7)
      = (m ((c : Thread nD τ).loc main_arg7)) := by
  host_skip hostOps0
private theorem W1_arg8 (c : Dev nD) :
    W1 (F := Ideal) m ρ c (Proc.devRef .tc main_arg8)
      = (m ((c : Thread nD τ).loc main_arg8)) := by
  host_skip hostOps0
private theorem W1_arg9 (c : Dev nD) :
    W1 (F := Ideal) m ρ c (Proc.devRef .tc main_arg9)
      = (m ((c : Thread nD τ).loc main_arg9)) := by
  host_skip hostOps0
private theorem W1_arg10 (c : Dev nD) :
    W1 (F := Ideal) m ρ c (Proc.devRef .tc main_arg10)
      = (m ((c : Thread nD τ).loc main_arg10)) := by
  host_skip hostOps0
private theorem W1_arg11 (c : Dev nD) :
    W1 (F := Ideal) m ρ c (Proc.devRef .tc main_arg11)
      = (m ((c : Thread nD τ).loc main_arg11)) := by
  host_skip hostOps0
private theorem W1_arg12 (c : Dev nD) :
    W1 (F := Ideal) m ρ c (Proc.devRef .tc main_arg12)
      = (m ((c : Thread nD τ).loc main_arg12)) := by
  host_skip hostOps0
private theorem W1_arg13 (c : Dev nD) :
    W1 (F := Ideal) m ρ c (Proc.devRef .tc main_arg13)
      = (m ((c : Thread nD τ).loc main_arg13)) := by
  host_skip hostOps0
private theorem W1_v0 (c : Dev nD) :
    W1 (F := Ideal) m ρ c (Proc.devRef .tc main_v0)
      = (Cert.Net.sliceLo (m ((c : Thread nD τ).loc main_arg4))) := by
  show StableHlo.after hostOps0 (W0 m ρ c) (Proc.devRef .tc main_v0) = _
  after_results
  all_goals rfl
private theorem W1_v1 (c : Dev nD) :
    W1 (F := Ideal) m ρ c (Proc.devRef .tc main_v1)
      = (Cert.Net.sliceHi (m ((c : Thread nD τ).loc main_arg4))) := by
  show StableHlo.after hostOps0 (W0 m ρ c) (Proc.devRef .tc main_v1) = _
  after_results
  all_goals rfl
private theorem W1_v2 (c : Dev nD) :
    W1 (F := Ideal) m ρ c (Proc.devRef .tc main_v2)
      = (Cert.Net.sliceLo (m ((c : Thread nD τ).loc main_arg6))) := by
  show StableHlo.after hostOps0 (W0 m ρ c) (Proc.devRef .tc main_v2) = _
  after_results
  all_goals rfl
private theorem W1_v3 (c : Dev nD) :
    W1 (F := Ideal) m ρ c (Proc.devRef .tc main_v3)
      = (Cert.Net.sliceHi (m ((c : Thread nD τ).loc main_arg6))) := by
  show StableHlo.after hostOps0 (W0 m ρ c) (Proc.devRef .tc main_v3) = _
  after_results
  all_goals rfl
private theorem W1_v10 (c : Dev nD) :
    W1 (F := Ideal) m ρ c (Proc.devRef .tc main_v10)
      = (Cert.Net.gath (m ((c : Thread nD τ).loc main_arg0)) (m ((c : Thread nD τ).loc main_arg2))) := by
  show StableHlo.after hostOps0 (W0 m ρ c) (Proc.devRef .tc main_v10) = _
  after_results_simp
  all_goals rfl

/-! ## At region 0's exit: the first layer's dense step over the edges -/

private theorem W2_v11 (c : Dev nD) :
    W2 (F := Ideal) m ρ c (Proc.devRef .tc main_v11)
      = (Cert.Net.dense800 (Cert.Net.gath (m ((c : Thread nD τ).loc main_arg0)) (m ((c : Thread nD τ).loc main_arg2))) (m ((c : Thread nD τ).loc main_arg1)) (Cert.Net.sliceLo (m ((c : Thread nD τ).loc main_arg4))) (Cert.Net.sliceHi (m ((c : Thread nD τ).loc main_arg4))) (m ((c : Thread nD τ).loc main_arg5))) := by
  refine ((W2_arr m ρ c 5).trans (region0_out (V1 m ρ) c)).trans ?_
  rw [show V1 m ρ c main_v10 = _ from W1_v10 m ρ c,
    show V1 m ρ c main_arg1 = _ from W1_arg1 m ρ c,
    show V1 m ρ c main_v0 = _ from W1_v0 m ρ c,
    show V1 m ρ c main_v1 = _ from W1_v1 m ρ c,
    show V1 m ρ c main_arg5 = _ from W1_arg5 m ρ c]
private theorem W2_arg1 (c : Dev nD) :
    W2 (F := Ideal) m ρ c (Proc.devRef .tc main_arg1)
      = (m ((c : Thread nD τ).loc main_arg1)) := by
  exact ((W2_arr m ρ c 1).trans (((dat0 (V1 m ρ) c).arrAt_in 1 rfl _).trans (A_eq0 (V1 m ρ) c 1))).trans (W1_arg1 m ρ c)
private theorem W2_arg0 (c : Dev nD) :
    W2 (F := Ideal) m ρ c (Proc.devRef .tc main_arg0)
      = (m ((c : Thread nD τ).loc main_arg0)) := by
  exact (W2_of_ne m ρ c main_arg0 (by decide)).trans (W1_arg0 m ρ c)
private theorem W2_arg2 (c : Dev nD) :
    W2 (F := Ideal) m ρ c (Proc.devRef .tc main_arg2)
      = (m ((c : Thread nD τ).loc main_arg2)) := by
  exact (W2_of_ne m ρ c main_arg2 (by decide)).trans (W1_arg2 m ρ c)
private theorem W2_arg3 (c : Dev nD) :
    W2 (F := Ideal) m ρ c (Proc.devRef .tc main_arg3)
      = (m ((c : Thread nD τ).loc main_arg3)) := by
  exact (W2_of_ne m ρ c main_arg3 (by decide)).trans (W1_arg3 m ρ c)
private theorem W2_arg7 (c : Dev nD) :
    W2 (F := Ideal) m ρ c (Proc.devRef .tc main_arg7)
      = (m ((c : Thread nD τ).loc main_arg7)) := by
  exact (W2_of_ne m ρ c main_arg7 (by decide)).trans (W1_arg7 m ρ c)
private theorem W2_arg8 (c : Dev nD) :
    W2 (F := Ideal) m ρ c (Proc.devRef .tc main_arg8)
      = (m ((c : Thread nD τ).loc main_arg8)) := by
  exact (W2_of_ne m ρ c main_arg8 (by decide)).trans (W1_arg8 m ρ c)
private theorem W2_arg9 (c : Dev nD) :
    W2 (F := Ideal) m ρ c (Proc.devRef .tc main_arg9)
      = (m ((c : Thread nD τ).loc main_arg9)) := by
  exact (W2_of_ne m ρ c main_arg9 (by decide)).trans (W1_arg9 m ρ c)
private theorem W2_arg10 (c : Dev nD) :
    W2 (F := Ideal) m ρ c (Proc.devRef .tc main_arg10)
      = (m ((c : Thread nD τ).loc main_arg10)) := by
  exact (W2_of_ne m ρ c main_arg10 (by decide)).trans (W1_arg10 m ρ c)
private theorem W2_arg11 (c : Dev nD) :
    W2 (F := Ideal) m ρ c (Proc.devRef .tc main_arg11)
      = (m ((c : Thread nD τ).loc main_arg11)) := by
  exact (W2_of_ne m ρ c main_arg11 (by decide)).trans (W1_arg11 m ρ c)
private theorem W2_arg12 (c : Dev nD) :
    W2 (F := Ideal) m ρ c (Proc.devRef .tc main_arg12)
      = (m ((c : Thread nD τ).loc main_arg12)) := by
  exact (W2_of_ne m ρ c main_arg12 (by decide)).trans (W1_arg12 m ρ c)
private theorem W2_arg13 (c : Dev nD) :
    W2 (F := Ideal) m ρ c (Proc.devRef .tc main_arg13)
      = (m ((c : Thread nD τ).loc main_arg13)) := by
  exact (W2_of_ne m ρ c main_arg13 (by decide)).trans (W1_arg13 m ρ c)
private theorem W2_v2 (c : Dev nD) :
    W2 (F := Ideal) m ρ c (Proc.devRef .tc main_v2)
      = (Cert.Net.sliceLo (m ((c : Thread nD τ).loc main_arg6))) := by
  exact (W2_of_ne m ρ c main_v2 (by decide)).trans (W1_v2 m ρ c)
private theorem W2_v3 (c : Dev nD) :
    W2 (F := Ideal) m ρ c (Proc.devRef .tc main_v3)
      = (Cert.Net.sliceHi (m ((c : Thread nD τ).loc main_arg6))) := by
  exact (W2_of_ne m ρ c main_v3 (by decide)).trans (W1_v3 m ρ c)

/-! ## After the second host stretch: the edge rows summed into the receiver rows -/

private theorem W3_v14 (c : Dev nD) :
    W3 (F := Ideal) m ρ c (Proc.devRef .tc main_v14)
      = (Cert.Net.pool (m ((c : Thread nD τ).loc main_arg3)) (Cert.Net.dense800 (Cert.Net.gath (m ((c : Thread nD τ).loc main_arg0)) (m ((c : Thread nD τ).loc main_arg2))) (m ((c : Thread nD τ).loc main_arg1)) (Cert.Net.sliceLo (m ((c : Thread nD τ).loc main_arg4))) (Cert.Net.sliceHi (m ((c : Thread nD τ).loc main_arg4))) (m ((c : Thread nD τ).loc main_arg5)))) := by
  show StableHlo.after hostOps1 (W2 m ρ c) (Proc.devRef .tc main_v14) = _
  after_results
  rw [W2_arg3 m ρ c, W2_v11 m ρ c]
  rfl
private theorem W3_arg0 (c : Dev nD) :
    W3 (F := Ideal) m ρ c (Proc.devRef .tc main_arg0)
      = (m ((c : Thread nD τ).loc main_arg0)) := by
  refine Eq.trans ?_ (W2_arg0 m ρ c)
  host_skip hostOps1
private theorem W3_arg1 (c : Dev nD) :
    W3 (F := Ideal) m ρ c (Proc.devRef .tc main_arg1)
      = (m ((c : Thread nD τ).loc main_arg1)) := by
  refine Eq.trans ?_ (W2_arg1 m ρ c)
  host_skip hostOps1
private theorem W3_arg2 (c : Dev nD) :
    W3 (F := Ideal) m ρ c (Proc.devRef .tc main_arg2)
      = (m ((c : Thread nD τ).loc main_arg2)) := by
  refine Eq.trans ?_ (W2_arg2 m ρ c)
  host_skip hostOps1
private theorem W3_arg3 (c : Dev nD) :
    W3 (F := Ideal) m ρ c (Proc.devRef .tc main_arg3)
      = (m ((c : Thread nD τ).loc main_arg3)) := by
  refine Eq.trans ?_ (W2_arg3 m ρ c)
  host_skip hostOps1
private theorem W3_arg7 (c : Dev nD) :
    W3 (F := Ideal) m ρ c (Proc.devRef .tc main_arg7)
      = (m ((c : Thread nD τ).loc main_arg7)) := by
  refine Eq.trans ?_ (W2_arg7 m ρ c)
  host_skip hostOps1
private theorem W3_arg8 (c : Dev nD) :
    W3 (F := Ideal) m ρ c (Proc.devRef .tc main_arg8)
      = (m ((c : Thread nD τ).loc main_arg8)) := by
  refine Eq.trans ?_ (W2_arg8 m ρ c)
  host_skip hostOps1
private theorem W3_arg9 (c : Dev nD) :
    W3 (F := Ideal) m ρ c (Proc.devRef .tc main_arg9)
      = (m ((c : Thread nD τ).loc main_arg9)) := by
  refine Eq.trans ?_ (W2_arg9 m ρ c)
  host_skip hostOps1
private theorem W3_arg10 (c : Dev nD) :
    W3 (F := Ideal) m ρ c (Proc.devRef .tc main_arg10)
      = (m ((c : Thread nD τ).loc main_arg10)) := by
  refine Eq.trans ?_ (W2_arg10 m ρ c)
  host_skip hostOps1
private theorem W3_arg11 (c : Dev nD) :
    W3 (F := Ideal) m ρ c (Proc.devRef .tc main_arg11)
      = (m ((c : Thread nD τ).loc main_arg11)) := by
  refine Eq.trans ?_ (W2_arg11 m ρ c)
  host_skip hostOps1
private theorem W3_arg12 (c : Dev nD) :
    W3 (F := Ideal) m ρ c (Proc.devRef .tc main_arg12)
      = (m ((c : Thread nD τ).loc main_arg12)) := by
  refine Eq.trans ?_ (W2_arg12 m ρ c)
  host_skip hostOps1
private theorem W3_arg13 (c : Dev nD) :
    W3 (F := Ideal) m ρ c (Proc.devRef .tc main_arg13)
      = (m ((c : Thread nD τ).loc main_arg13)) := by
  refine Eq.trans ?_ (W2_arg13 m ρ c)
  host_skip hostOps1
private theorem W3_v2 (c : Dev nD) :
    W3 (F := Ideal) m ρ c (Proc.devRef .tc main_v2)
      = (Cert.Net.sliceLo (m ((c : Thread nD τ).loc main_arg6))) := by
  refine Eq.trans ?_ (W2_v2 m ρ c)
  host_skip hostOps1
private theorem W3_v3 (c : Dev nD) :
    W3 (F := Ideal) m ρ c (Proc.devRef .tc main_v3)
      = (Cert.Net.sliceHi (m ((c : Thread nD τ).loc main_arg6))) := by
  refine Eq.trans ?_ (W2_v3 m ρ c)
  host_skip hostOps1

/-! ## At region 1's exit: the first layer -/

private theorem W4_v15 (c : Dev nD) :
    W4 (F := Ideal) m ρ c (Proc.devRef .tc main_v15)
      = (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine ((W4_arr m ρ c 5).trans (region1_out (V3 m ρ) c)).trans ?_
  rw [show V3 m ρ c main_arg0 = _ from W3_arg0 m ρ c,
    show V3 m ρ c main_v14 = _ from W3_v14 m ρ c,
    show V3 m ρ c main_v2 = _ from W3_v2 m ρ c,
    show V3 m ρ c main_v3 = _ from W3_v3 m ρ c,
    show V3 m ρ c main_arg7 = _ from W3_arg7 m ρ c]
  rfl
private theorem W4_arg1 (c : Dev nD) :
    W4 (F := Ideal) m ρ c (Proc.devRef .tc main_arg1)
      = (m ((c : Thread nD τ).loc main_arg1)) := by
  exact (W4_of_ne m ρ c main_arg1 (by decide)).trans (W3_arg1 m ρ c)
private theorem W4_arg2 (c : Dev nD) :
    W4 (F := Ideal) m ρ c (Proc.devRef .tc main_arg2)
      = (m ((c : Thread nD τ).loc main_arg2)) := by
  exact (W4_of_ne m ρ c main_arg2 (by decide)).trans (W3_arg2 m ρ c)
private theorem W4_arg3 (c : Dev nD) :
    W4 (F := Ideal) m ρ c (Proc.devRef .tc main_arg3)
      = (m ((c : Thread nD τ).loc main_arg3)) := by
  exact (W4_of_ne m ρ c main_arg3 (by decide)).trans (W3_arg3 m ρ c)
private theorem W4_arg8 (c : Dev nD) :
    W4 (F := Ideal) m ρ c (Proc.devRef .tc main_arg8)
      = (m ((c : Thread nD τ).loc main_arg8)) := by
  exact (W4_of_ne m ρ c main_arg8 (by decide)).trans (W3_arg8 m ρ c)
private theorem W4_arg9 (c : Dev nD) :
    W4 (F := Ideal) m ρ c (Proc.devRef .tc main_arg9)
      = (m ((c : Thread nD τ).loc main_arg9)) := by
  exact (W4_of_ne m ρ c main_arg9 (by decide)).trans (W3_arg9 m ρ c)
private theorem W4_arg10 (c : Dev nD) :
    W4 (F := Ideal) m ρ c (Proc.devRef .tc main_arg10)
      = (m ((c : Thread nD τ).loc main_arg10)) := by
  exact (W4_of_ne m ρ c main_arg10 (by decide)).trans (W3_arg10 m ρ c)
private theorem W4_arg11 (c : Dev nD) :
    W4 (F := Ideal) m ρ c (Proc.devRef .tc main_arg11)
      = (m ((c : Thread nD τ).loc main_arg11)) := by
  exact (W4_of_ne m ρ c main_arg11 (by decide)).trans (W3_arg11 m ρ c)
private theorem W4_arg12 (c : Dev nD) :
    W4 (F := Ideal) m ρ c (Proc.devRef .tc main_arg12)
      = (m ((c : Thread nD τ).loc main_arg12)) := by
  exact (W4_of_ne m ρ c main_arg12 (by decide)).trans (W3_arg12 m ρ c)
private theorem W4_arg13 (c : Dev nD) :
    W4 (F := Ideal) m ρ c (Proc.devRef .tc main_arg13)
      = (m ((c : Thread nD τ).loc main_arg13)) := by
  exact (W4_of_ne m ρ c main_arg13 (by decide)).trans (W3_arg13 m ρ c)

/-! ## After the third host stretch: the second layer's weight halves and gathered rows -/

private theorem W5_v16 (c : Dev nD) :
    W5 (F := Ideal) m ρ c (Proc.devRef .tc main_v16)
      = (Cert.Net.sliceLo (m ((c : Thread nD τ).loc main_arg8))) := by
  show StableHlo.after hostOps2 (W4 m ρ c) (Proc.devRef .tc main_v16) = _
  after_results
  rw [W4_arg8 m ρ c]
private theorem W5_v17 (c : Dev nD) :
    W5 (F := Ideal) m ρ c (Proc.devRef .tc main_v17)
      = (Cert.Net.sliceHi (m ((c : Thread nD τ).loc main_arg8))) := by
  show StableHlo.after hostOps2 (W4 m ρ c) (Proc.devRef .tc main_v17) = _
  after_results
  rw [W4_arg8 m ρ c]
private theorem W5_v18 (c : Dev nD) :
    W5 (F := Ideal) m ρ c (Proc.devRef .tc main_v18)
      = (Cert.Net.sliceLo (m ((c : Thread nD τ).loc main_arg10))) := by
  show StableHlo.after hostOps2 (W4 m ρ c) (Proc.devRef .tc main_v18) = _
  after_results
  rw [W4_arg10 m ρ c]
private theorem W5_v19 (c : Dev nD) :
    W5 (F := Ideal) m ρ c (Proc.devRef .tc main_v19)
      = (Cert.Net.sliceHi (m ((c : Thread nD τ).loc main_arg10))) := by
  show StableHlo.after hostOps2 (W4 m ρ c) (Proc.devRef .tc main_v19) = _
  after_results
  rw [W4_arg10 m ρ c]
private theorem W5_v26 (c : Dev nD) :
    W5 (F := Ideal) m ρ c (Proc.devRef .tc main_v26)
      = (Cert.Net.gath (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2))) := by
  show StableHlo.after hostOps2 (W4 m ρ c) (Proc.devRef .tc main_v26) = _
  after_results_simp
  rw [W4_v15 m ρ c, W4_arg2 m ρ c]
  rfl
private theorem W5_arg1 (c : Dev nD) :
    W5 (F := Ideal) m ρ c (Proc.devRef .tc main_arg1)
      = (m ((c : Thread nD τ).loc main_arg1)) := by
  refine Eq.trans ?_ (W4_arg1 m ρ c)
  host_skip hostOps2
private theorem W5_arg3 (c : Dev nD) :
    W5 (F := Ideal) m ρ c (Proc.devRef .tc main_arg3)
      = (m ((c : Thread nD τ).loc main_arg3)) := by
  refine Eq.trans ?_ (W4_arg3 m ρ c)
  host_skip hostOps2
private theorem W5_arg9 (c : Dev nD) :
    W5 (F := Ideal) m ρ c (Proc.devRef .tc main_arg9)
      = (m ((c : Thread nD τ).loc main_arg9)) := by
  refine Eq.trans ?_ (W4_arg9 m ρ c)
  host_skip hostOps2
private theorem W5_arg11 (c : Dev nD) :
    W5 (F := Ideal) m ρ c (Proc.devRef .tc main_arg11)
      = (m ((c : Thread nD τ).loc main_arg11)) := by
  refine Eq.trans ?_ (W4_arg11 m ρ c)
  host_skip hostOps2
private theorem W5_arg12 (c : Dev nD) :
    W5 (F := Ideal) m ρ c (Proc.devRef .tc main_arg12)
      = (m ((c : Thread nD τ).loc main_arg12)) := by
  refine Eq.trans ?_ (W4_arg12 m ρ c)
  host_skip hostOps2
private theorem W5_arg13 (c : Dev nD) :
    W5 (F := Ideal) m ρ c (Proc.devRef .tc main_arg13)
      = (m ((c : Thread nD τ).loc main_arg13)) := by
  refine Eq.trans ?_ (W4_arg13 m ρ c)
  host_skip hostOps2
private theorem W5_v15 (c : Dev nD) :
    W5 (F := Ideal) m ρ c (Proc.devRef .tc main_v15)
      = (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine Eq.trans ?_ (W4_v15 m ρ c)
  host_skip hostOps2

/-! ## At region 2's exit: the second layer's dense step over the edges -/

private theorem W6_v27 (c : Dev nD) :
    W6 (F := Ideal) m ρ c (Proc.devRef .tc main_v27)
      = (Cert.Net.dense800 (Cert.Net.gath (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2))) (m ((c : Thread nD τ).loc main_arg1)) (Cert.Net.sliceLo (m ((c : Thread nD τ).loc main_arg8))) (Cert.Net.sliceHi (m ((c : Thread nD τ).loc main_arg8))) (m ((c : Thread nD τ).loc main_arg9))) := by
  refine ((W6_arr m ρ c 5).trans (region2_out (V5 m ρ) c)).trans ?_
  rw [show V5 m ρ c main_v26 = _ from W5_v26 m ρ c,
    show V5 m ρ c main_arg1 = _ from W5_arg1 m ρ c,
    show V5 m ρ c main_v16 = _ from W5_v16 m ρ c,
    show V5 m ρ c main_v17 = _ from W5_v17 m ρ c,
    show V5 m ρ c main_arg9 = _ from W5_arg9 m ρ c]
private theorem W6_arg3 (c : Dev nD) :
    W6 (F := Ideal) m ρ c (Proc.devRef .tc main_arg3)
      = (m ((c : Thread nD τ).loc main_arg3)) := by
  exact (W6_of_ne m ρ c main_arg3 (by decide)).trans (W5_arg3 m ρ c)
private theorem W6_arg11 (c : Dev nD) :
    W6 (F := Ideal) m ρ c (Proc.devRef .tc main_arg11)
      = (m ((c : Thread nD τ).loc main_arg11)) := by
  exact (W6_of_ne m ρ c main_arg11 (by decide)).trans (W5_arg11 m ρ c)
private theorem W6_arg12 (c : Dev nD) :
    W6 (F := Ideal) m ρ c (Proc.devRef .tc main_arg12)
      = (m ((c : Thread nD τ).loc main_arg12)) := by
  exact (W6_of_ne m ρ c main_arg12 (by decide)).trans (W5_arg12 m ρ c)
private theorem W6_arg13 (c : Dev nD) :
    W6 (F := Ideal) m ρ c (Proc.devRef .tc main_arg13)
      = (m ((c : Thread nD τ).loc main_arg13)) := by
  exact (W6_of_ne m ρ c main_arg13 (by decide)).trans (W5_arg13 m ρ c)
private theorem W6_v15 (c : Dev nD) :
    W6 (F := Ideal) m ρ c (Proc.devRef .tc main_v15)
      = (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  exact (W6_of_ne m ρ c main_v15 (by decide)).trans (W5_v15 m ρ c)
private theorem W6_v18 (c : Dev nD) :
    W6 (F := Ideal) m ρ c (Proc.devRef .tc main_v18)
      = (Cert.Net.sliceLo (m ((c : Thread nD τ).loc main_arg10))) := by
  exact (W6_of_ne m ρ c main_v18 (by decide)).trans (W5_v18 m ρ c)
private theorem W6_v19 (c : Dev nD) :
    W6 (F := Ideal) m ρ c (Proc.devRef .tc main_v19)
      = (Cert.Net.sliceHi (m ((c : Thread nD τ).loc main_arg10))) := by
  exact (W6_of_ne m ρ c main_v19 (by decide)).trans (W5_v19 m ρ c)

/-! ## After the fourth host stretch: the second scatter-add -/

private theorem W7_v30 (c : Dev nD) :
    W7 (F := Ideal) m ρ c (Proc.devRef .tc main_v30)
      = (Cert.Net.pool (m ((c : Thread nD τ).loc main_arg3)) (Cert.Net.dense800 (Cert.Net.gath (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2))) (m ((c : Thread nD τ).loc main_arg1)) (Cert.Net.sliceLo (m ((c : Thread nD τ).loc main_arg8))) (Cert.Net.sliceHi (m ((c : Thread nD τ).loc main_arg8))) (m ((c : Thread nD τ).loc main_arg9)))) := by
  show StableHlo.after hostOps3 (W6 m ρ c) (Proc.devRef .tc main_v30) = _
  after_results
  rw [W6_arg3 m ρ c, W6_v27 m ρ c]
  rfl
private theorem W7_arg11 (c : Dev nD) :
    W7 (F := Ideal) m ρ c (Proc.devRef .tc main_arg11)
      = (m ((c : Thread nD τ).loc main_arg11)) := by
  refine Eq.trans ?_ (W6_arg11 m ρ c)
  host_skip hostOps3
private theorem W7_arg12 (c : Dev nD) :
    W7 (F := Ideal) m ρ c (Proc.devRef .tc main_arg12)
      = (m ((c : Thread nD τ).loc main_arg12)) := by
  refine Eq.trans ?_ (W6_arg12 m ρ c)
  host_skip hostOps3
private theorem W7_arg13 (c : Dev nD) :
    W7 (F := Ideal) m ρ c (Proc.devRef .tc main_arg13)
      = (m ((c : Thread nD τ).loc main_arg13)) := by
  refine Eq.trans ?_ (W6_arg13 m ρ c)
  host_skip hostOps3
private theorem W7_v15 (c : Dev nD) :
    W7 (F := Ideal) m ρ c (Proc.devRef .tc main_v15)
      = (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine Eq.trans ?_ (W6_v15 m ρ c)
  host_skip hostOps3
private theorem W7_v18 (c : Dev nD) :
    W7 (F := Ideal) m ρ c (Proc.devRef .tc main_v18)
      = (Cert.Net.sliceLo (m ((c : Thread nD τ).loc main_arg10))) := by
  refine Eq.trans ?_ (W6_v18 m ρ c)
  host_skip hostOps3
private theorem W7_v19 (c : Dev nD) :
    W7 (F := Ideal) m ρ c (Proc.devRef .tc main_v19)
      = (Cert.Net.sliceHi (m ((c : Thread nD τ).loc main_arg10))) := by
  refine Eq.trans ?_ (W6_v19 m ρ c)
  host_skip hostOps3

/-! ## At region 3's exit: the second layer -/

private theorem W8_v31 (c : Dev nD) :
    W8 (F := Ideal) m ρ c (Proc.devRef .tc main_v31)
      = (Cert.Net.layer (Cert.Net.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) := by
  refine ((W8_arr m ρ c 5).trans (region3_out (V7 m ρ) c)).trans ?_
  rw [show V7 m ρ c main_v15 = _ from W7_v15 m ρ c,
    show V7 m ρ c main_v30 = _ from W7_v30 m ρ c,
    show V7 m ρ c main_v18 = _ from W7_v18 m ρ c,
    show V7 m ρ c main_v19 = _ from W7_v19 m ρ c,
    show V7 m ρ c main_arg11 = _ from W7_arg11 m ρ c]
  rfl
private theorem W8_arg12 (c : Dev nD) :
    W8 (F := Ideal) m ρ c (Proc.devRef .tc main_arg12)
      = (m ((c : Thread nD τ).loc main_arg12)) := by
  exact (W8_of_ne m ρ c main_arg12 (by decide)).trans (W7_arg12 m ρ c)
private theorem W8_arg13 (c : Dev nD) :
    W8 (F := Ideal) m ρ c (Proc.devRef .tc main_arg13)
      = (m ((c : Thread nD τ).loc main_arg13)) := by
  exact (W8_of_ne m ρ c main_arg13 (by decide)).trans (W7_arg13 m ρ c)

/-- The result buffer's last contents are the network of the launch arguments. -/
theorem W9_result (c : Dev nD) :
    W9 (F := Ideal) m ρ c (Proc.devRef .tc main_v35)
      = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps4 (W8 m ρ c) (Proc.devRef .tc main_v35) = _
  after_results
  rw [W8_v31 m ρ c, W8_arg12 m ρ c, W8_arg13 m ρ c]
  rfl

end Cert.KernelIdeal.Chain

end
-- ==== Proof.RefBridge.lean ====
/-
  The reference's dense step is the network's: `tanh ((concat [X, E] along the columns) · W + b)` read at entry
  `(r, j)` is a 128-term sum over the concatenated row, whose first 64 terms pair `X r k` with row `k` of `W` and
  whose last 64 pair `E r k` with row `64 + k`; split there, it is `(∑ k, X r k · Wlo k j) + (∑ k, E r k · Whi k j)`
  with `Wlo`, `Whi` the two halves of `W` — only commutativity and associativity of the extended reals' sum.
-/
import proofs.«133444_j69784628625437_1_alg».proof.Proof.Gen.ReferenceIdeal
import proofs.«133444_j69784628625437_1_alg».proof.Proof.Spec
import Idealize.ShloMosaic.Lib.ValueIdx
import Idealize.ShloMosaic.Lib.Pipeline.Value
import Idealize.ShloMosaic.PureOps.Ideal.Laws

noncomputable section

namespace Cert.ReferenceIdeal.Bridge

open Idealize.ShloMosaic Idealize.ShloMosaic.ValueIdx Cert.ReferenceIdeal Cert.ReferenceIdeal.Facts₀

/-- Column `k` of the first half of a 128-wide row. -/
private abbrev lo (k : Fin 64) : Fin 128 := ⟨k.val, Nat.lt_of_lt_of_le k.isLt (by decide)⟩
/-- Column `64 + k` of the second half of a 128-wide row. -/
private abbrev hi (k : Fin 64) : Fin 128 := ⟨64 + k.val, Nat.add_lt_add_left k.isLt 64⟩

/-- A 128-term sum is the sum of its first 64 terms plus the sum of its last 64. -/
private theorem sum128_split (f : Fin 128 → EReal) :
    ∑ k : Fin 128, f k = (∑ k : Fin 64, f (lo k)) + ∑ k : Fin 64, f (hi k) :=
  Fin.sum_univ_add (a := 64) (b := 64) (f : Fin (64 + 64) → EReal)

/-- Row `k` of the lower half of `W` is row `k` of `W`. -/
private theorem sliceLo_apply (W : Vec Ideal S128x64 .f32) (k : Fin 64) (j : Fin 64) :
    Cert.Net.sliceLo W (ix2 k j) = W (ix2 (lo k) j) :=
  extractStridedSlice_apply _ W _ (ix2 k j) (ix2 (lo k) j) (fun a => by
    match a with
    | ⟨0, _⟩ => exact (Nat.zero_add _).symm
    | ⟨1, _⟩ => exact (Nat.zero_add _).symm)

/-- Row `k` of the upper half of `W` is row `64 + k` of `W`. -/
private theorem sliceHi_apply (W : Vec Ideal S128x64 .f32) (k : Fin 64) (j : Fin 64) :
    Cert.Net.sliceHi W (ix2 k j) = W (ix2 (hi k) j) :=
  extractStridedSlice_apply _ W _ (ix2 k j) (ix2 (hi k) j) (fun a => by
    match a with
    | ⟨0, _⟩ => rfl
    | ⟨1, _⟩ => exact (Nat.zero_add _).symm)

/-- The bias broadcast to a row and then down the rows reads `b j` at `(r, j)`. -/
private theorem bias_row_apply (b : Vec Ideal S64 .f32) (j : Fin 64) :
    broadcastInDim S1x64 ![1] bcast_S64_S1x64_1 b (ix2 (0 : Fin 1) j) = b (ix1 j) :=
  broadcastInDim_apply _ _ b (ix2 (0 : Fin 1) j) (ix1 j) (fun a => by
    match a with
    | ⟨0, _⟩ => rfl)

/-! ## The 800000-row step -/

private theorem lhs800000_0 (i : S800000x64.Idx) (q : dot_S800000x128_S128x64_S800000x64_1_0_0_1_n_n.contr.Idx) :
    (dot_S800000x128_S128x64_S800000x64_1_0_0_1_n_n.lhsIdx i q 0).val = (i 0).val := by
  unfold DotDims.lhsIdx
  rw [dif_neg (show ¬(0 : Fin S800000x128.rank) ∈ dot_S800000x128_S128x64_S800000x64_1_0_0_1_n_n.lhsBatch by decide), dif_pos (show (0 : Fin S800000x128.rank) ∈ dot_S800000x128_S128x64_S800000x64_1_0_0_1_n_n.lhsNonContracting by decide)]
  rfl
private theorem lhs800000_1 (i : S800000x64.Idx) (q : dot_S800000x128_S128x64_S800000x64_1_0_0_1_n_n.contr.Idx) :
    (dot_S800000x128_S128x64_S800000x64_1_0_0_1_n_n.lhsIdx i q 1).val = (q ⟨0, by decide⟩).val :=
  dot_S800000x128_S128x64_S800000x64_1_0_0_1_n_n.lhsIdx_val_of_single rfl i q
private theorem rhs800000_0 (i : S800000x64.Idx) (q : dot_S800000x128_S128x64_S800000x64_1_0_0_1_n_n.contr.Idx) :
    (dot_S800000x128_S128x64_S800000x64_1_0_0_1_n_n.rhsIdx i q 0).val = (q ⟨0, by decide⟩).val :=
  dot_S800000x128_S128x64_S800000x64_1_0_0_1_n_n.rhsIdx_val_of_single rfl i q
private theorem rhs800000_1 (i : S800000x64.Idx) (q : dot_S800000x128_S128x64_S800000x64_1_0_0_1_n_n.contr.Idx) :
    (dot_S800000x128_S128x64_S800000x64_1_0_0_1_n_n.rhsIdx i q 1).val = (i 1).val := by
  unfold DotDims.rhsIdx
  rw [dif_neg (show ¬(1 : Fin S128x64.rank) ∈ dot_S800000x128_S128x64_S800000x64_1_0_0_1_n_n.rhsBatch by decide), dif_pos (show (1 : Fin S128x64.rank) ∈ dot_S800000x128_S128x64_S800000x64_1_0_0_1_n_n.rhsNonContracting by decide)]
  rfl

/-- The product at entry `(r, j)` is the 128-term sum of row `r` against column `j`. -/
private theorem dot800000_apply (Y : Vec Ideal S800000x128 .f32) (W : Vec Ideal S128x64 .f32) (r : Fin 800000) (j : Fin 64) :
    Host.dotGeneral (F := Ideal) (φ₁ := .f32) (φ₂ := .f32) dot_S800000x128_S128x64_S800000x64_1_0_0_1_n_n none Y W (ix2 r j)
      = ∑ k : Fin 128, Y (ix2 r k) * W (ix2 k j) := by
  simp only [Host.dotGeneral]
  rw [Ideal.dotGeneral_apply, ← Equiv.sum_comp (ValueIdx.contrEquiv1 dot_S800000x128_S128x64_S800000x64_1_0_0_1_n_n 128 rfl rfl).symm]
  refine Finset.sum_congr rfl fun k _ => ?_
  have hk := ValueIdx.contrEquiv1_symm_val dot_S800000x128_S128x64_S800000x64_1_0_0_1_n_n 128 rfl rfl k
  have el : dot_S800000x128_S128x64_S800000x64_1_0_0_1_n_n.lhsIdx (ix2 r j) ((ValueIdx.contrEquiv1 dot_S800000x128_S128x64_S800000x64_1_0_0_1_n_n 128 rfl rfl).symm k) = ix2 r k := funext fun a => Fin.ext (by
    match a with
    | ⟨0, _⟩ => exact lhs800000_0 _ _
    | ⟨1, _⟩ => exact (lhs800000_1 _ _).trans hk)
  have er : dot_S800000x128_S128x64_S800000x64_1_0_0_1_n_n.rhsIdx (ix2 r j) ((ValueIdx.contrEquiv1 dot_S800000x128_S128x64_S800000x64_1_0_0_1_n_n 128 rfl rfl).symm k) = ix2 k j := funext fun a => Fin.ext (by
    match a with
    | ⟨0, _⟩ => exact (rhs800000_0 _ _).trans hk
    | ⟨1, _⟩ => exact rhs800000_1 _ _)
  rw [el, er]

/-- The concatenated row reads `X` in its first 64 columns. -/
private theorem cat800000_lo (X E : Vec Ideal S800000x64 .f32) (r : Fin 800000) (k : Fin 64) :
    concatenate S800000x128 1 [⟨S800000x64, X⟩, ⟨S800000x64, E⟩] concatenates_S800000x64_S800000x64_S800000x128_d1 (ix2 r (lo k))
      = X (ix2 r k) :=
  concatenate_pair_apply_left 1 X E _ (ix2 r (lo k)) rfl (ix2 r k) (fun a => by
    match a with
    | ⟨0, _⟩ => rfl
    | ⟨1, _⟩ => rfl)

/-- The concatenated row reads `E` in its last 64 columns. -/
private theorem cat800000_hi (X E : Vec Ideal S800000x64 .f32) (r : Fin 800000) (k : Fin 64) :
    concatenate S800000x128 1 [⟨S800000x64, X⟩, ⟨S800000x64, E⟩] concatenates_S800000x64_S800000x64_S800000x128_d1 (ix2 r (hi k))
      = E (ix2 r k) :=
  concatenate_pair_apply_right 1 X E _ (ix2 r (hi k)) rfl rfl (ix2 r k) (fun a ha => by
    match a with
    | ⟨0, _⟩ => rfl
    | ⟨1, _⟩ => exact absurd rfl ha) (Nat.add_comm _ _)

/-- The broadcast bias reads `b j` at `(r, j)`. -/
private theorem bias800000_apply (b : Vec Ideal S64 .f32) (r : Fin 800000) (j : Fin 64) :
    broadcastInDim S800000x64 ![0, 1] bcast_S1x64_S800000x64_0_1 (broadcastInDim S1x64 ![1] bcast_S64_S1x64_1 b) (ix2 r j) = b (ix1 j) :=
  (broadcastInDim_apply _ _ _ (ix2 r j) (ix2 (0 : Fin 1) j) (fun a => by
    match a with
    | ⟨0, _⟩ => rfl
    | ⟨1, _⟩ => rfl)).trans (bias_row_apply b j)

/-! ## The 50000-row step -/

private theorem lhs50000_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
private theorem lhs50000_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
private theorem rhs50000_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
private theorem rhs50000_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The product at entry `(r, j)` is the 128-term sum of row `r` against column `j`. -/
private theorem dot50000_apply (Y : Vec Ideal S50000x128 .f32) (W : Vec Ideal S128x64 .f32) (r : Fin 50000) (j : Fin 64) :
    Host.dotGeneral (F := Ideal) (φ₁ := .f32) (φ₂ := .f32) dot_S50000x128_S128x64_S50000x64_1_0_0_1_n_n none Y W (ix2 r j)
      = ∑ k : Fin 128, Y (ix2 r k) * W (ix2 k j) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 r j) ((ValueIdx.contrEquiv1 dot_S50000x128_S128x64_S50000x64_1_0_0_1_n_n 128 rfl rfl).symm k) = ix2 r k := funext fun a => Fin.ext (by
    match a with
    | ⟨0, _⟩ => exact lhs50000_0 _ _
    | ⟨1, _⟩ => exact (lhs50000_1 _ _).trans hk)
  have er : dot_S50000x128_S128x64_S50000x64_1_0_0_1_n_n.rhsIdx (ix2 r j) ((ValueIdx.contrEquiv1 dot_S50000x128_S128x64_S50000x64_1_0_0_1_n_n 128 rfl rfl).symm k) = ix2 k j := funext fun a => Fin.ext (by
    match a with
    | ⟨0, _⟩ => exact (rhs50000_0 _ _).trans hk
    | ⟨1, _⟩ => exact rhs50000_1 _ _)
  rw [el, er]

/-- The concatenated row reads `X` in its first 64 columns. -/
private theorem cat50000_lo (X E : Vec Ideal S50000x64 .f32) (r : Fin 50000) (k : Fin 64) :
    concatenate S50000x128 1 [⟨S50000x64, X⟩, ⟨S50000x64, E⟩] concatenates_S50000x64_S50000x64_S50000x128_d1 (ix2 r (lo k))
      = X (ix2 r k) :=
  concatenate_pair_apply_left 1 X E _ (ix2 r (lo k)) rfl (ix2 r k) (fun a => by
    match a with
    | ⟨0, _⟩ => rfl
    | ⟨1, _⟩ => rfl)

/-- The concatenated row reads `E` in its last 64 columns. -/
private theorem cat50000_hi (X E : Vec Ideal S50000x64 .f32) (r : Fin 50000) (k : Fin 64) :
    concatenate S50000x128 1 [⟨S50000x64, X⟩, ⟨S50000x64, E⟩] concatenates_S50000x64_S50000x64_S50000x128_d1 (ix2 r (hi k))
      = E (ix2 r k) :=
  concatenate_pair_apply_right 1 X E _ (ix2 r (hi k)) rfl rfl (ix2 r k) (fun a ha => by
    match a with
    | ⟨0, _⟩ => rfl
    | ⟨1, _⟩ => exact absurd rfl ha) (Nat.add_comm _ _)

/-- The broadcast bias reads `b j` at `(r, j)`. -/
private theorem bias50000_apply (b : Vec Ideal S64 .f32) (r : Fin 50000) (j : Fin 64) :
    broadcastInDim S50000x64 ![0, 1] bcast_S1x64_S50000x64_0_1 (broadcastInDim S1x64 ![1] bcast_S64_S1x64_1 b) (ix2 r j) = b (ix1 j) :=
  (broadcastInDim_apply _ _ _ (ix2 r j) (ix2 (0 : Fin 1) j) (fun a => by
    match a with
    | ⟨0, _⟩ => rfl
    | ⟨1, _⟩ => rfl)).trans (bias_row_apply b j)

/-! ## The two steps -/

/-- The edge step (800000 rows). -/
theorem dense800_ref (X E : Vec Ideal S800000x64 .f32) (W : Vec Ideal S128x64 .f32) (b : Vec Ideal S64 .f32) :
    Host.tanh (F := Ideal) (addf (F := Ideal)
        (Host.dotGeneral (F := Ideal) (φ₁ := .f32) (φ₂ := .f32) dot_S800000x128_S128x64_S800000x64_1_0_0_1_n_n none
          (concatenate S800000x128 1 [⟨S800000x64, X⟩, ⟨S800000x64, E⟩] concatenates_S800000x64_S800000x64_S800000x128_d1) W)
        (broadcastInDim S800000x64 ![0, 1] bcast_S1x64_S800000x64_0_1 (broadcastInDim S1x64 ![1] bcast_S64_S1x64_1 b)))
      = Cert.Net.dense800 X E (Cert.Net.sliceLo W) (Cert.Net.sliceHi W) b := by
  funext i
  obtain ⟨r, j, rfl⟩ : ∃ (r : Fin 800000) (j : Fin 64), i = ix2 r j := ⟨i 0, i 1, eq_ix2 i⟩
  show Ideal.tanh (Host.dotGeneral (F := Ideal) (φ₁ := .f32) (φ₂ := .f32) dot_S800000x128_S128x64_S800000x64_1_0_0_1_n_n none
          (concatenate S800000x128 1 [⟨S800000x64, X⟩, ⟨S800000x64, E⟩] concatenates_S800000x64_S800000x64_S800000x128_d1) W (ix2 r j)
        + broadcastInDim S800000x64 ![0, 1] bcast_S1x64_S800000x64_0_1 (broadcastInDim S1x64 ![1] bcast_S64_S1x64_1 b) (ix2 r j))
      = Ideal.tanh (((∑ k : Fin 64, X (ix2 r k) * Cert.Net.sliceLo W (ix2 k j))
          + (∑ k : Fin 64, E (ix2 r k) * Cert.Net.sliceHi W (ix2 k j))) + b (ix1 j))
  rw [dot800000_apply, bias800000_apply, sum128_split]
  have h1 : ∀ k : Fin 64,
      concatenate S800000x128 1 [⟨S800000x64, X⟩, ⟨S800000x64, E⟩] concatenates_S800000x64_S800000x64_S800000x128_d1 (ix2 r (lo k)) * W (ix2 (lo k) j)
        = X (ix2 r k) * Cert.Net.sliceLo W (ix2 k j) := fun k => by rw [cat800000_lo, sliceLo_apply]
  have h2 : ∀ k : Fin 64,
      concatenate S800000x128 1 [⟨S800000x64, X⟩, ⟨S800000x64, E⟩] concatenates_S800000x64_S800000x64_S800000x128_d1 (ix2 r (hi k)) * W (ix2 (hi k) j)
        = E (ix2 r k) * Cert.Net.sliceHi W (ix2 k j) := fun k => by rw [cat800000_hi, sliceHi_apply]
  rw [Fintype.sum_congr _ _ h1, Fintype.sum_congr _ _ h2]

/-- The node step (50000 rows). -/
theorem dense50_ref (X E : Vec Ideal S50000x64 .f32) (W : Vec Ideal S128x64 .f32) (b : Vec Ideal S64 .f32) :
    Host.tanh (F := Ideal) (addf (F := Ideal)
        (Host.dotGeneral (F := Ideal) (φ₁ := .f32) (φ₂ := .f32) dot_S50000x128_S128x64_S50000x64_1_0_0_1_n_n none
          (concatenate S50000x128 1 [⟨S50000x64, X⟩, ⟨S50000x64, E⟩] concatenates_S50000x64_S50000x64_S50000x128_d1) W)
        (broadcastInDim S50000x64 ![0, 1] bcast_S1x64_S50000x64_0_1 (broadcastInDim S1x64 ![1] bcast_S64_S1x64_1 b)))
      = Cert.Net.dense50 X E (Cert.Net.sliceLo W) (Cert.Net.sliceHi W) b := by
  funext i
  obtain ⟨r, j, rfl⟩ : ∃ (r : Fin 50000) (j : Fin 64), i = ix2 r j := ⟨i 0, i 1, eq_ix2 i⟩
  show Ideal.tanh (Host.dotGeneral (F := Ideal) (φ₁ := .f32) (φ₂ := .f32) dot_S50000x128_S128x64_S50000x64_1_0_0_1_n_n none
          (concatenate S50000x128 1 [⟨S50000x64, X⟩, ⟨S50000x64, E⟩] concatenates_S50000x64_S50000x64_S50000x128_d1) W (ix2 r j)
        + broadcastInDim S50000x64 ![0, 1] bcast_S1x64_S50000x64_0_1 (broadcastInDim S1x64 ![1] bcast_S64_S1x64_1 b) (ix2 r j))
      = Ideal.tanh (((∑ k : Fin 64, X (ix2 r k) * Cert.Net.sliceLo W (ix2 k j))
          + (∑ k : Fin 64, E (ix2 r k) * Cert.Net.sliceHi W (ix2 k j))) + b (ix1 j))
  rw [dot50000_apply, bias50000_apply, sum128_split]
  have h1 : ∀ k : Fin 64,
      concatenate S50000x128 1 [⟨S50000x64, X⟩, ⟨S50000x64, E⟩] concatenates_S50000x64_S50000x64_S50000x128_d1 (ix2 r (lo k)) * W (ix2 (lo k) j)
        = X (ix2 r k) * Cert.Net.sliceLo W (ix2 k j) := fun k => by rw [cat50000_lo, sliceLo_apply]
  have h2 : ∀ k : Fin 64,
      concatenate S50000x128 1 [⟨S50000x64, X⟩, ⟨S50000x64, E⟩] concatenates_S50000x64_S50000x64_S50000x128_d1 (ix2 r (hi k)) * W (ix2 (hi k) j)
        = E (ix2 r k) * Cert.Net.sliceHi W (ix2 k j) := fun k => by rw [cat50000_hi, sliceHi_apply]
  rw [Fintype.sum_congr _ _ h1, Fintype.sum_congr _ _ h2]

end Cert.ReferenceIdeal.Bridge

end
-- ==== Proof.RefValue.lean ====
/-
  The reference's fold of its 54 host operations, read at the result buffer, is the network of its arguments.
  The operations are cut into five stretches — the edge step of layer 1, the node step of layer 1, the edge step of
  layer 2, the node step of layer 2, the closing product — and each stretch is read from ANY contents it starts
  from: what it writes at its last buffer is the network's dense step (the bridge), gather or scatter-add of what it
  reads, and the argument buffers (and the first layer's output, read again by the second layer's node step) pass
  through it unchanged. Composing the five readings gives `Cert.Net.net`.
-/
import proofs.«133444_j69784628625437_1_alg».proof.Proof.RefRunP
import proofs.«133444_j69784628625437_1_alg».proof.Proof.RefBridge
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

section Stretches
variable {F : FTy → Type} [FloatOps F]

/-- Layer 1's edge step: the wrapped sender indices, the gather, the concatenation, the product, the bias, tanh. -/
abbrev opsA : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v6 main_arg1 main_v7 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v7 main_arg4 main_v8 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S800000x64 ![0, 1] bcast_S1x64_S800000x64_0_1 : (⟨S1x64, .f32⟩ : BufTy).Contents (Elt F) → (⟨S800000x64, .f32⟩ : BufTy).Contents (Elt F)),
    binary main_v8 main_v10 main_v11 (addf : (⟨S800000x64, .f32⟩ : BufTy).Contents (Elt F) → (⟨S800000x64, .f32⟩ : BufTy).Contents (Elt F) → (⟨S800000x64, .f32⟩ : BufTy).Contents (Elt F)),
    unary main_v11 main_v12 (Host.tanh : (⟨S800000x64, .f32⟩ : BufTy).Contents (Elt F) → (⟨S800000x64, .f32⟩ : BufTy).Contents (Elt F)) ]

/-- Layer 1's node step: the scatter-add into zeros, the concatenation with the node state, the product, the bias, tanh. -/
abbrev opsB : List (HloOp τ sig (Elt F)) :=
  [ nullary main_cst (constant S_ .f32 0x00000000#32),
    unary main_cst main_v13 (broadcastInDim S50000x64 ![] bcast_S_S50000x64 : (⟨S_, .f32⟩ : BufTy).Contents (Elt F) → (⟨S50000x64, .f32⟩ : BufTy).Contents (Elt F)),
    unary main_arg3 main_v14 (broadcastInDim S800000x1 ![0] bcast_S800000_S800000x1_0 : (⟨S800000, .i32⟩ : BufTy).Contents (Elt F) → (⟨S800000x1, .i32⟩ : BufTy).Contents (Elt F)),
    ternary main_v13 main_v14 main_v12 main_v15 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_v15 main_v16 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v16 main_arg6 main_v17 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v18 (broadcastInDim S1x64 ![1] bcast_S64_S1x64_1 : (⟨S64, .f32⟩ : BufTy).Contents (Elt F) → (⟨S1x64, .f32⟩ : BufTy).Contents (Elt F)),
    unary main_v18 main_v19 (broadcastInDim S50000x64 ![0, 1] bcast_S1x64_S50000x64_0_1 : (⟨S1x64, .f32⟩ : BufTy).Contents (Elt F) → (⟨S50000x64, .f32⟩ : BufTy).Contents (Elt F)),
    binary main_v17 main_v19 main_v20 (addf : (⟨S50000x64, .f32⟩ : BufTy).Contents (Elt F) → (⟨S50000x64, .f32⟩ : BufTy).Contents (Elt F) → (⟨S50000x64, .f32⟩ : BufTy).Contents (Elt F)),
    unary main_v20 main_v21 (Host.tanh : (⟨S50000x64, .f32⟩ : BufTy).Contents (Elt F) → (⟨S50000x64, .f32⟩ : BufTy).Contents (Elt F)) ]

/-- Layer 2's edge step. -/
abbrev opsC : List (HloOp τ sig (Elt F)) :=
  [ nullary main_c_1 (constantI S_ 32 0#32),
    unary main_c_1 main_v22 (broadcastInDim S800000 ![] bcast_S_S800000 : (⟨S_, .i32⟩ : BufTy).Contents (Elt F) → (⟨S800000, .i32⟩ : BufTy).Contents (Elt F)),
    binary main_arg2 main_v22 main_v23 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v24 (broadcastInDim S800000 ![] bcast_S_S800000 : (⟨S_, .i32⟩ : BufTy).Contents (Elt F) → (⟨S800000, .i32⟩ : BufTy).Contents (Elt F)),
    binary main_arg2 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg2 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v28 main_arg1 main_v29 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v29 main_arg8 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg9 main_v31 (broadcastInDim S1x64 ![1] bcast_S64_S1x64_1 : (⟨S64, .f32⟩ : BufTy).Contents (Elt F) → (⟨S1x64, .f32⟩ : BufTy).Contents (Elt F)),
    unary main_v31 main_v32 (broadcastInDim S800000x64 ![0, 1] bcast_S1x64_S800000x64_0_1 : (⟨S1x64, .f32⟩ : BufTy).Contents (Elt F) → (⟨S800000x64, .f32⟩ : BufTy).Contents (Elt F)),
    binary main_v30 main_v32 main_v33 (addf : (⟨S800000x64, .f32⟩ : BufTy).Contents (Elt F) → (⟨S800000x64, .f32⟩ : BufTy).Contents (Elt F) → (⟨S800000x64, .f32⟩ : BufTy).Contents (Elt F)),
    unary main_v33 main_v34 (Host.tanh : (⟨S800000x64, .f32⟩ : BufTy).Contents (Elt F) → (⟨S800000x64, .f32⟩ : BufTy).Contents (Elt F)) ]

/-- Layer 2's node step. -/
abbrev opsD : List (HloOp τ sig (Elt F)) :=
  [ nullary main_cst_3 (constant S_ .f32 0x00000000#32),
    unary main_cst_3 main_v35 (broadcastInDim S50000x64 ![] bcast_S_S50000x64 : (⟨S_, .f32⟩ : BufTy).Contents (Elt F) → (⟨S50000x64, .f32⟩ : BufTy).Contents (Elt F)),
    unary main_arg3 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v21 main_v37 main_v38 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v38 main_arg10 main_v39 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg11 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v39 main_v41 main_v42 (addf : (⟨S50000x64, .f32⟩ : BufTy).Contents (Elt F) → (⟨S50000x64, .f32⟩ : BufTy).Contents (Elt F) → (⟨S50000x64, .f32⟩ : BufTy).Contents (Elt F)),
    unary main_v42 main_v43 (Host.tanh : (⟨S50000x64, .f32⟩ : BufTy).Contents (Elt F) → (⟨S50000x64, .f32⟩ : BufTy).Contents (Elt F)) ]

/-- The closing product with the output weights, plus the output bias. -/
abbrev opsE : List (HloOp τ sig (Elt F)) :=
  [ binary main_v43 main_arg12 main_v44 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg13 main_v45 (broadcastInDim S1x1 ![1] bcast_S1_S1x1_1 : (⟨S1, .f32⟩ : BufTy).Contents (Elt F) → (⟨S1x1, .f32⟩ : BufTy).Contents (Elt F)),
    unary main_v45 main_v46 (broadcastInDim S50000x1 ![0, 1] bcast_S1x1_S50000x1_0_1 : (⟨S1x1, .f32⟩ : BufTy).Contents (Elt F) → (⟨S50000x1, .f32⟩ : BufTy).Contents (Elt F)),
    binary main_v44 main_v46 main_v47 (addf : (⟨S50000x1, .f32⟩ : BufTy).Contents (Elt F) → (⟨S50000x1, .f32⟩ : BufTy).Contents (Elt F) → (⟨S50000x1, .f32⟩ : BufTy).Contents (Elt F)) ]

set_option maxRecDepth 8192 in
/-- The program's operations are the five stretches in order. -/
theorem ops_split : (Cert.ReferenceIdeal.RunP.ops (F := F)) = opsA ++ (opsB ++ (opsC ++ (opsD ++ opsE))) := rfl

end Stretches

/-! ## What each stretch writes, from any contents -/

set_option maxHeartbeats 2000000 in
/-- Layer 1's edge rows. -/
theorem stretchA (W : Valuation τ sig (Elt Ideal)) :
    after (opsA (F := Ideal)) W (Proc.devRef .tc main_v12)
      = Cert.Net.dense800 (Cert.Net.gath (W (Proc.devRef .tc main_arg0)) (W (Proc.devRef .tc main_arg2))) (W (Proc.devRef .tc main_arg1))
          (Cert.Net.sliceLo (W (Proc.devRef .tc main_arg4))) (Cert.Net.sliceHi (W (Proc.devRef .tc main_arg4))) (W (Proc.devRef .tc main_arg5)) := by
  after_results
  exact Cert.ReferenceIdeal.Bridge.dense800_ref _ _ _ _

set_option maxHeartbeats 2000000 in
/-- Layer 1's node rows. -/
theorem stretchB (W : Valuation τ sig (Elt Ideal)) :
    after (opsB (F := Ideal)) W (Proc.devRef .tc main_v21)
      = Cert.Net.dense50 (W (Proc.devRef .tc main_arg0)) (Cert.Net.pool (W (Proc.devRef .tc main_arg3)) (W (Proc.devRef .tc main_v12)))
          (Cert.Net.sliceLo (W (Proc.devRef .tc main_arg6))) (Cert.Net.sliceHi (W (Proc.devRef .tc main_arg6))) (W (Proc.devRef .tc main_arg7)) := by
  after_results
  exact Cert.ReferenceIdeal.Bridge.dense50_ref _ _ _ _

set_option maxHeartbeats 2000000 in
/-- Layer 2's edge rows. -/
theorem stretchC (W : Valuation τ sig (Elt Ideal)) :
    after (opsC (F := Ideal)) W (Proc.devRef .tc main_v34)
      = Cert.Net.dense800 (Cert.Net.gath (W (Proc.devRef .tc main_v21)) (W (Proc.devRef .tc main_arg2))) (W (Proc.devRef .tc main_arg1))
          (Cert.Net.sliceLo (W (Proc.devRef .tc main_arg8))) (Cert.Net.sliceHi (W (Proc.devRef .tc main_arg8))) (W (Proc.devRef .tc main_arg9)) := by
  after_results
  exact Cert.ReferenceIdeal.Bridge.dense800_ref _ _ _ _

set_option maxHeartbeats 2000000 in
/-- Layer 2's node rows. -/
theorem stretchD (W : Valuation τ sig (Elt Ideal)) :
    after (opsD (F := Ideal)) W (Proc.devRef .tc main_v43)
      = Cert.Net.dense50 (W (Proc.devRef .tc main_v21)) (Cert.Net.pool (W (Proc.devRef .tc main_arg3)) (W (Proc.devRef .tc main_v34)))
          (Cert.Net.sliceLo (W (Proc.devRef .tc main_arg10))) (Cert.Net.sliceHi (W (Proc.devRef .tc main_arg10))) (W (Proc.devRef .tc main_arg11)) := by
  after_results
  exact Cert.ReferenceIdeal.Bridge.dense50_ref _ _ _ _

set_option maxHeartbeats 2000000 in
/-- The result: the node rows times the output weights, plus the output bias. -/
theorem stretchE (W : Valuation τ sig (Elt Ideal)) :
    after (opsE (F := Ideal)) W (Proc.devRef .tc main_v47)
      = addf (F := Ideal) (Host.dotGeneral (F := Ideal) (φ₁ := .f32) (φ₂ := .f32) dot_S50000x64_S64x1_S50000x1_1_0_0_1_n_n none (W (Proc.devRef .tc main_v43)) (W (Proc.devRef .tc main_arg12)))
          (broadcastInDim S50000x1 ![0, 1] bcast_S1x1_S50000x1_0_1 (broadcastInDim S1x1 ![1] bcast_S1_S1x1_1 (W (Proc.devRef .tc main_arg13)))) := by
  after_results

/-! ## What passes through each stretch unchanged -/

theorem keepA_arg12 (W : Valuation τ sig (Elt Ideal)) : after (opsA (F := Ideal)) W (Proc.devRef .tc main_arg12) = W (Proc.devRef .tc main_arg12) := by after_results
theorem keepA_arg13 (W : Valuation τ sig (Elt Ideal)) : after (opsA (F := Ideal)) W (Proc.devRef .tc main_arg13) = W (Proc.devRef .tc main_arg13) := by after_results
theorem keepA_arg3 (W : Valuation τ sig (Elt Ideal)) : after (opsA (F := Ideal)) W (Proc.devRef .tc main_arg3) = W (Proc.devRef .tc main_arg3) := by after_results
theorem keepA_arg10 (W : Valuation τ sig (Elt Ideal)) : after (opsA (F := Ideal)) W (Proc.devRef .tc main_arg10) = W (Proc.devRef .tc main_arg10) := by after_results
theorem keepA_arg11 (W : Valuation τ sig (Elt Ideal)) : after (opsA (F := Ideal)) W (Proc.devRef .tc main_arg11) = W (Proc.devRef .tc main_arg11) := by after_results
theorem keepA_arg2 (W : Valuation τ sig (Elt Ideal)) : after (opsA (F := Ideal)) W (Proc.devRef .tc main_arg2) = W (Proc.devRef .tc main_arg2) := by after_results
theorem keepA_arg1 (W : Valuation τ sig (Elt Ideal)) : after (opsA (F := Ideal)) W (Proc.devRef .tc main_arg1) = W (Proc.devRef .tc main_arg1) := by after_results
theorem keepA_arg8 (W : Valuation τ sig (Elt Ideal)) : after (opsA (F := Ideal)) W (Proc.devRef .tc main_arg8) = W (Proc.devRef .tc main_arg8) := by after_results
theorem keepA_arg9 (W : Valuation τ sig (Elt Ideal)) : after (opsA (F := Ideal)) W (Proc.devRef .tc main_arg9) = W (Proc.devRef .tc main_arg9) := by after_results
theorem keepA_arg0 (W : Valuation τ sig (Elt Ideal)) : after (opsA (F := Ideal)) W (Proc.devRef .tc main_arg0) = W (Proc.devRef .tc main_arg0) := by after_results
theorem keepA_arg6 (W : Valuation τ sig (Elt Ideal)) : after (opsA (F := Ideal)) W (Proc.devRef .tc main_arg6) = W (Proc.devRef .tc main_arg6) := by after_results
theorem keepA_arg7 (W : Valuation τ sig (Elt Ideal)) : after (opsA (F := Ideal)) W (Proc.devRef .tc main_arg7) = W (Proc.devRef .tc main_arg7) := by after_results
theorem keepB_arg12 (W : Valuation τ sig (Elt Ideal)) : after (opsB (F := Ideal)) W (Proc.devRef .tc main_arg12) = W (Proc.devRef .tc main_arg12) := by after_results
theorem keepB_arg13 (W : Valuation τ sig (Elt Ideal)) : after (opsB (F := Ideal)) W (Proc.devRef .tc main_arg13) = W (Proc.devRef .tc main_arg13) := by after_results
theorem keepB_arg3 (W : Valuation τ sig (Elt Ideal)) : after (opsB (F := Ideal)) W (Proc.devRef .tc main_arg3) = W (Proc.devRef .tc main_arg3) := by after_results
theorem keepB_arg10 (W : Valuation τ sig (Elt Ideal)) : after (opsB (F := Ideal)) W (Proc.devRef .tc main_arg10) = W (Proc.devRef .tc main_arg10) := by after_results
theorem keepB_arg11 (W : Valuation τ sig (Elt Ideal)) : after (opsB (F := Ideal)) W (Proc.devRef .tc main_arg11) = W (Proc.devRef .tc main_arg11) := by after_results
theorem keepB_arg2 (W : Valuation τ sig (Elt Ideal)) : after (opsB (F := Ideal)) W (Proc.devRef .tc main_arg2) = W (Proc.devRef .tc main_arg2) := by after_results
theorem keepB_arg1 (W : Valuation τ sig (Elt Ideal)) : after (opsB (F := Ideal)) W (Proc.devRef .tc main_arg1) = W (Proc.devRef .tc main_arg1) := by after_results
theorem keepB_arg8 (W : Valuation τ sig (Elt Ideal)) : after (opsB (F := Ideal)) W (Proc.devRef .tc main_arg8) = W (Proc.devRef .tc main_arg8) := by after_results
theorem keepB_arg9 (W : Valuation τ sig (Elt Ideal)) : after (opsB (F := Ideal)) W (Proc.devRef .tc main_arg9) = W (Proc.devRef .tc main_arg9) := by after_results
theorem keepC_arg12 (W : Valuation τ sig (Elt Ideal)) : after (opsC (F := Ideal)) W (Proc.devRef .tc main_arg12) = W (Proc.devRef .tc main_arg12) := by after_results
theorem keepC_arg13 (W : Valuation τ sig (Elt Ideal)) : after (opsC (F := Ideal)) W (Proc.devRef .tc main_arg13) = W (Proc.devRef .tc main_arg13) := by after_results
theorem keepC_v21 (W : Valuation τ sig (Elt Ideal)) : after (opsC (F := Ideal)) W (Proc.devRef .tc main_v21) = W (Proc.devRef .tc main_v21) := by after_results
theorem keepC_arg3 (W : Valuation τ sig (Elt Ideal)) : after (opsC (F := Ideal)) W (Proc.devRef .tc main_arg3) = W (Proc.devRef .tc main_arg3) := by after_results
theorem keepC_arg10 (W : Valuation τ sig (Elt Ideal)) : after (opsC (F := Ideal)) W (Proc.devRef .tc main_arg10) = W (Proc.devRef .tc main_arg10) := by after_results
theorem keepC_arg11 (W : Valuation τ sig (Elt Ideal)) : after (opsC (F := Ideal)) W (Proc.devRef .tc main_arg11) = W (Proc.devRef .tc main_arg11) := by after_results
theorem keepD_arg12 (W : Valuation τ sig (Elt Ideal)) : after (opsD (F := Ideal)) W (Proc.devRef .tc main_arg12) = W (Proc.devRef .tc main_arg12) := by after_results
theorem keepD_arg13 (W : Valuation τ sig (Elt Ideal)) : after (opsD (F := Ideal)) W (Proc.devRef .tc main_arg13) = W (Proc.devRef .tc main_arg13) := by after_results

/-! ## The five readings composed -/

/-- The reference's result, as the network of the launch arguments. -/
theorem result_eq_net (m' : (ℓ : Loc nD τ sig) → Buf (Elt Ideal) ℓ) (c : Dev nD) :
    StableHlo.after (Cert.ReferenceIdeal.RunP.ops (F := Ideal)) (StableHlo.launchContents m' c) (Proc.devRef .tc main_v47)
      = Cert.Net.net (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) := by
  rw [ops_split, after_append, after_append, after_append, after_append, stretchE,
    stretchD, keepD_arg12, keepD_arg13,
    stretchC, keepC_arg12, keepC_arg13, keepC_v21, keepC_arg3, keepC_arg10, keepC_arg11,
    stretchB, keepB_arg12, keepB_arg13, keepB_arg3, keepB_arg10, keepB_arg11, keepB_arg2, keepB_arg1, keepB_arg8, keepB_arg9,
    stretchA, keepA_arg12, keepA_arg13, keepA_arg3, keepA_arg10, keepA_arg11, keepA_arg2, keepA_arg1, keepA_arg8, keepA_arg9,
    keepA_arg0, keepA_arg6, keepA_arg7]
  rfl

end Cert.ReferenceIdeal.RefValue

end
-- ==== Proof.lean ====
/-
  The certificate of a two-layer message-passing network: the kernel computes each dense step
  `tanh (x · Wh + e · We + b)` in a blocked region (edges in 80 blocks of 10000 rows, nodes in 10 blocks of 5000 rows)
  with the weight matrix already cut in its two halves, and gathers sender rows, scatter-adds into receiver rows and
  applies the output weights on the host; the reference computes `tanh (concat [x, e] · W + b)` on the host.

  At the ideal values both end at ONE function of the fourteen arguments, `Cert.Net.net` (Proof/Spec.lean): the
  128-term product of a concatenated row with the stacked matrix is the sum of the two 64-term products with its
  halves (Proof/RefBridge.lean), the format changes inside the kernel are the identity and its products accumulate
  into zero (Proof/KBody.lean), each region's blocks tile its output array (Proof/KRegion0..3.lean), and the host
  operations between the regions are the reference's own (Proof/KChain.lean, Proof/RefValue.lean). Only commutativity
  and associativity of the extended reals' addition are used, so the precondition is never opened.

  The three frames are the programs' runs with the results dropped; the idealization changed nothing that needs a
  statement (`preserves` is `True`).
-/
import proofs.«133444_j69784628625437_1_alg».proof.Defs
import proofs.«133444_j69784628625437_1_alg».proof.Proof.Gen.Kernel
import proofs.«133444_j69784628625437_1_alg».proof.Proof.Gen.Kernel.Frame
import proofs.«133444_j69784628625437_1_alg».proof.Proof.Gen.KernelIdeal
import proofs.«133444_j69784628625437_1_alg».proof.Proof.Gen.KernelIdeal.Frame
import proofs.«133444_j69784628625437_1_alg».proof.Proof.Gen.ReferenceIdeal
import proofs.«133444_j69784628625437_1_alg».proof.Proof.Gen.Pre_finite_inputs
import proofs.«133444_j69784628625437_1_alg».proof.Proof.KRun
import proofs.«133444_j69784628625437_1_alg».proof.Proof.KChain
import proofs.«133444_j69784628625437_1_alg».proof.Proof.RefRunP
import proofs.«133444_j69784628625437_1_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization applied no rewrite that needs a statement. -/
theorem preserves : Cert.preserves_Kernel_KernelIdeal := trivial

/-- The idealized kernel's run ends with the result array at the network of its arguments. -/
theorem kernelIdeal_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v35) = Cert.Net.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun _ h c => ⟨(h c).1.trans (Cert.KernelIdeal.Chain.W9_result m ρ c), (h c).2⟩)
    (Cert.KernelIdeal.GenRun.run_result (F := Ideal) m ρ)

/-- Run from memories that agree on the arguments, the two idealized programs end with equal results: both results
    are the network of the arguments. -/
theorem algebraic : Cert.algebraic_KernelIdeal_ReferenceIdeal := by
  intro m ρ m' ρ' _ hagree
  refine ⟨_, kernelIdeal_value m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12, h13⟩ := hagree c
  rw [Cert.ReferenceIdeal.RefValue.result_eq_net, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
